-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S2000000 : Shape := ⟨1, ![2000000]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64x64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_v48 main_v49 main_v50

def fn_part1 {F : FTy → Type} [FloatOps F] (main_arg6 : FVec F S64x64 .f32) (main_arg7 : FVec F S64x64 .f32) (main_arg8 : FVec F S64x64 .f32) (main_arg9 : FVec F S64x64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S200000x64 .f32) (main_arg1 : FVec F S100000x64 .f32) (main_arg2 : IVec S2000000 32) (main_arg3 : IVec S2000000 32) (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) (main_arg10 : FVec F S64x64 .f32) (main_arg11 : FVec F S64x64 .f32) (main_arg12 : FVec F S64 .f32) (main_arg13 : FVec F S64 .f32) (main_arg14 : FVec F S64 .f32) (main_arg15 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S200000x64 : Shape := ⟨2, ![200000, 64]⟩
abbrev S100000x64 : Shape := ⟨2, ![100000, 64]⟩
abbrev S2000000 : Shape := ⟨1, ![2000000]⟩
abbrev S64x64 : Shape := ⟨2, ![64, 64]⟩
abbrev S64 : Shape := ⟨1, ![64]⟩
abbrev S_ : Shape := ⟨0, ![]⟩
abbrev S2000000x1 : Shape := ⟨2, ![2000000, 1]⟩
abbrev S2000000x64 : Shape := ⟨2, ![2000000, 64]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S1x64 : Shape := ⟨2, ![1, 64]⟩
abbrev S2000x64 : Shape := ⟨2, ![2000, 64]⟩
abbrev S8000x64 : Shape := ⟨2, ![8000, 64]⟩

abbrev nBuf : Space → Nat
  | .hbm => 124
  | .vmem => 36
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S2000000, .i32⟩
  | .hbm, ⟨3, _⟩ => ⟨S2000000, .i32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x64, .f32⟩
  | .hbm, ⟨25, _⟩ => ⟨S_, .f32⟩
  | .hbm, ⟨26, _⟩ => ⟨S100000x64, .f32⟩
  | .hbm, ⟨27, _⟩ => ⟨S2000000x1, .i32⟩
  | .hbm, ⟨28, _⟩ => ⟨S100000x64, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S100000, .f32⟩
  | .hbm, ⟨33, _⟩ => ⟨S2000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000x64, .f32⟩
  | .hbm, ⟨50, _⟩ => ⟨S_, .f32⟩
  | .hbm, ⟨51, _⟩ => ⟨S200000x64, .f32⟩
  | .hbm, ⟨52, _⟩ => ⟨S2000000x1, .i32⟩
  | .hbm, ⟨53, _⟩ => ⟨S200000x64, .f32⟩
  | .hbm, ⟨54, _⟩ => ⟨S_, .f32⟩
  | .hbm, ⟨55, _⟩ => ⟨S2000000, .f32⟩
  | .hbm, ⟨56, _⟩ => ⟨S_, .f32⟩
  | .hbm, ⟨57, _⟩ => ⟨S200000, .f32⟩
  | .hbm, ⟨58, _⟩ => ⟨S2000000x1, .i32⟩
  | .hbm, ⟨59, _⟩ => ⟨S200000, .f32⟩
  | .hbm, ⟨60, _⟩ => ⟨S_, .f32⟩
  | .hbm, ⟨61, _⟩ => ⟨S200000, .f32⟩
  | .hbm, ⟨62, _⟩ => ⟨S200000, .f32⟩
  | .hbm, ⟨63, _⟩ => ⟨S200000x1, .f32⟩
  | .hbm, ⟨64, _⟩ => ⟨S200000x64, .f32⟩
  | .hbm, ⟨65, _⟩ => ⟨S200000x64, .f32⟩
  | .hbm, ⟨66, _⟩ => ⟨S1x64, .f32⟩
  | .hbm, ⟨67, _⟩ => ⟨S100000x64, .f32⟩
  | .hbm, ⟨68, _⟩ => ⟨S1x64, .f32⟩
  | .hbm, ⟨69, _⟩ => ⟨S200000x64, .f32⟩
  | .hbm, ⟨70, _⟩ => ⟨S_, .i32⟩
  | .hbm, ⟨71, _⟩ => ⟨S2000000, .i32⟩
  | .hbm, ⟨72, _⟩ => ⟨S2000000, .i1⟩
  | .hbm, ⟨73, _⟩ => ⟨S_, .i32⟩
  | .hbm, ⟨74, _⟩ => ⟨S2000000, .i32⟩
  | .hbm, ⟨75, _⟩ => ⟨S2000000, .i32⟩
  | .hbm, ⟨76, _⟩ => ⟨S2000000, .i32⟩
  | .hbm, ⟨77, _⟩ => ⟨S2000000x1, .i32⟩
  | .hbm, ⟨78, _⟩ => ⟨S2000000x64, .f32⟩
  | .hbm, ⟨79, _⟩ => ⟨S_, .f32⟩
  | .hbm, ⟨80, _⟩ => ⟨S100000x64, .f32⟩
  | .hbm, ⟨81, _⟩ => ⟨S2000000x1, .i32⟩
  | .hbm, ⟨82, _⟩ => ⟨S100000x64, .f32⟩
  | .hbm, ⟨83, _⟩ => ⟨S_, .f32⟩
  | .hbm, ⟨84, _⟩ => ⟨S2000000, .f32⟩
  | .hbm, ⟨85, _⟩ => ⟨S_, .f32⟩
  | .hbm, ⟨86, _⟩ => ⟨S100000, .f32⟩
  | .hbm, ⟨87, _⟩ => ⟨S2000000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S2000000, .i32⟩
  | .hbm, ⟨97, _⟩ => ⟨S2000000, .i1⟩
  | .hbm, ⟨98, _⟩ => ⟨S_, .i32⟩
  | .hbm, ⟨99, _⟩ => ⟨S2000000, .i32⟩
  | .hbm, ⟨100, _⟩ => ⟨S2000000, .i32⟩
  | .hbm, ⟨101, _⟩ => ⟨S2000000, .i32⟩
  | .hbm, ⟨102, _⟩ => ⟨S2000000x1, .i32⟩
  | .hbm, ⟨103, _⟩ => ⟨S2000000x64, .f32⟩
  | .hbm, ⟨104, _⟩ => ⟨S_, .f32⟩
  | .hbm, ⟨105, _⟩ => ⟨S200000x64, .f32⟩
  | .hbm, ⟨106, _⟩ => ⟨S2000000x1, .i32⟩
  | .hbm, ⟨107, _⟩ => ⟨S200000x64, .f32⟩
  | .hbm, ⟨108, _⟩ => ⟨S_, .f32⟩
  | .hbm, ⟨109, _⟩ => ⟨S2000000, .f32⟩
  | .hbm, ⟨110, _⟩ => ⟨S_, .f32⟩
  | .hbm, ⟨111, _⟩ => ⟨S200000, .f32⟩
  | .hbm, ⟨112, _⟩ => ⟨S2000000x1, .i32⟩
  | .hbm, ⟨113, _⟩ => ⟨S200000, .f32⟩
  | .hbm, ⟨114, _⟩ => ⟨S_, .f32⟩
  | .hbm, ⟨115, _⟩ => ⟨S200000, .f32⟩
  | .hbm, ⟨116, _⟩ => ⟨S200000, .f32⟩
  | .hbm, ⟨117, _⟩ => ⟨S200000x1, .f32⟩
  | .hbm, ⟨118, _⟩ => ⟨S200000x64, .f32⟩
  | .hbm, ⟨119, _⟩ => ⟨S200000x64, .f32⟩
  | .hbm, ⟨120, _⟩ => ⟨S1x64, .f32⟩
  | .hbm, ⟨121, _⟩ => ⟨S100000x64, .f32⟩
  | .hbm, ⟨122, _⟩ => ⟨S1x64, .f32⟩
  | .hbm, ⟨123, _⟩ => ⟨S200000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S8000x64, .f32⟩
  | .local _ .vmem, ⟨17, _⟩ => ⟨S8000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | .local _ .vmem, ⟨27, _⟩ => ⟨S8000x64, .f32⟩
  | .local _ .vmem, ⟨28, _⟩ => ⟨S8000x64, .f32⟩
  | .local _ .vmem, ⟨29, _⟩ => ⟨S8000x64, .f32⟩
  | .local _ .vmem, ⟨30, _⟩ => ⟨S8000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S8000x64, .f32⟩
  | .local _ .vmem, ⟨35, _⟩ => ⟨S8000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_16 : Ref sig .tc := ⟨.hbm, 95, rfl⟩
abbrev main_v61 : Ref sig .tc := ⟨.hbm, 96, rfl⟩
abbrev main_v62 : Ref sig .tc := ⟨.hbm, 97, rfl⟩
abbrev main_c_17 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_19 : Ref sig .tc := ⟨.hbm, 108, rfl⟩
abbrev main_v71 : Ref sig .tc := ⟨.hbm, 109, rfl⟩
abbrev main_cst_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_21 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x64_S8000x64 : S1x64.Broadcasts S8000x64
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  dot_S2000x64_S64x64_S2000x64_1_0_0_1_n_n_wf : DotDims.WF S2000x64 S64x64 S2000x64 [1] [0] [0] [1] [] []
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S200000x64.size a
  hwx1_0 : ∀ i : grid1.Coords, EltTy.bits .f32 = 32 ∨ (Rect.block (s := S200000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S200000x64.size a
  hwx1_1 : ∀ i : grid1.Coords, EltTy.bits .f32 = 32 ∨ (Rect.block (s := S200000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S200000x64.size a
  hwx1_5 : ∀ i : grid1.Coords, EltTy.bits .f32 = 32 ∨ (Rect.block (s := S200000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S200000x64.size a
  hwx3_0 : ∀ i : grid3.Coords, EltTy.bits .f32 = 32 ∨ (Rect.block (s := S200000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S200000x64.size a
  hwx3_1 : ∀ i : grid3.Coords, EltTy.bits .f32 = 32 ∨ (Rect.block (s := S200000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S200000x64.size a
  hwx3_5 : ∀ i : grid3.Coords, EltTy.bits .f32 = 32 ∨ (Rect.block (s := S200000x64) S8000x64.size (cc3_transform_5 i) (hinb3_5 i)).WholeWords (EltTy.packing .f32)

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v79) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S8000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S2000000 : Shape := ⟨1, ![2000000]⟩
abbrev S64x64 : Shape := ⟨2, ![64, 64]⟩
abbrev S64 : Shape := ⟨1, ![64]⟩
abbrev S_ : Shape := ⟨0, ![]⟩
abbrev S2000000x1 : Shape := ⟨2, ![2000000, 1]⟩
abbrev S2000000x64 : Shape := ⟨2, ![2000000, 64]⟩
abbrev S100000 : Shape := ⟨1, ![100000]⟩
abbrev S100000x1 : Shape := ⟨2, ![100000, 1]⟩
abbrev S1x64 : Shape := ⟨2, ![1, 64]⟩
abbrev S200000 : Shape := ⟨1, ![200000]⟩
abbrev S200000x1 : Shape := ⟨2, ![200000, 1]⟩

abbrev nBuf : Space → Nat
  | .hbm => 146
  | .vmem => 0
  | .smem => 0
  | _ => 0

abbrev hbmTy0_0 (i : Nat) : BufTy := match i % 128 with
  | 0 => ⟨S200000x64, .f32⟩
  | 1 => ⟨S100000x64, .f32⟩
  | 2 => ⟨S2000000, .i32⟩
  | 3 => ⟨S2000000, .i32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64, .f32⟩
  | 13 => ⟨S64, .f32⟩
  | 14 => ⟨S64, .f32⟩
  | 15 => ⟨S64, .f32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S2000000x1, .i32⟩
  | 24 => ⟨S2000000x64, .f32⟩
  | 25 => ⟨S_, .f32⟩
  | 26 => ⟨S100000x64, .f32⟩
  | 27 => ⟨S2000000x1, .i32⟩
  | 28 => ⟨S100000x64, .f32⟩
  | 29 => ⟨S_, .f32⟩
  | 30 => ⟨S2000000, .f32⟩
  | 31 => ⟨S_, .f32⟩
  | 32 => ⟨S100000, .f32⟩
  | 33 => ⟨S2000000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S_, .f32⟩
  | 57 => ⟨S200000x64, .f32⟩
  | 58 => ⟨S2000000x1, .i32⟩
  | 59 => ⟨S200000x64, .f32⟩
  | 60 => ⟨S_, .f32⟩
  | 61 => ⟨S2000000, .f32⟩
  | 62 => ⟨S_, .f32⟩
  | 63 => ⟨S200000, .f32⟩
  | 64 => ⟨S2000000x1, .i32⟩
  | 65 => ⟨S200000, .f32⟩
  | 66 => ⟨S_, .f32⟩
  | 67 => ⟨S200000, .f32⟩
  | 68 => ⟨S200000, .f32⟩
  | 69 => ⟨S200000x1, .f32⟩
  | 70 => ⟨S200000x64, .f32⟩
  | 71 => ⟨S200000x64, .f32⟩
  | 72 => ⟨S200000x64, .f32⟩
  | 73 => ⟨S1x64, .f32⟩
  | 74 => ⟨S200000x64, .f32⟩
  | 75 => ⟨S200000x64, .f32⟩
  | 76 => ⟨S200000x64, .f32⟩
  | 77 => ⟨S200000x64, .f32⟩
  | 78 => ⟨S_, .f32⟩
  | 79 => ⟨S200000x64, .f32⟩
  | 80 => ⟨S200000x64, .f32⟩
  | 81 => ⟨S_, .f32⟩
  | 82 => ⟨S100000x64, .f32⟩
  | 83 => ⟨S100000x64, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x64, .f32⟩
  | 93 => ⟨S_, .f32⟩
  | 94 => ⟨S100000x64, .f32⟩
  | 95 => ⟨S2000000x1, .i32⟩
  | 96 => ⟨S100000x64, .f32⟩
  | 97 => ⟨S_, .f32⟩
  | 98 => ⟨S2000000, .f32⟩
  | 99 => ⟨S_, .f32⟩
  | 100 => ⟨S100000, .f32⟩
  | 101 => ⟨S2000000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S100000x64, .f32⟩
  | 114 => ⟨S100000x64, .f32⟩
  | 115 => ⟨S_, .i32⟩
  | 116 => ⟨S2000000, .i32⟩
  | 117 => ⟨S2000000, .i1⟩
  | 118 => ⟨S_, .i32⟩
  | 119 => ⟨S2000000, .i32⟩
  | 120 => ⟨S2000000, .i32⟩
  | 121 => ⟨S2000000, .i32⟩
  | 122 => ⟨S2000000x1, .i32⟩
  | 123 => ⟨S2000000x64, .f32⟩
  | 124 => ⟨S_, .f32⟩
  | 125 => ⟨S200000x64, .f32⟩
  | 126 => ⟨S2000000x1, .i32⟩
  | 127 => ⟨S200000x64, .f32⟩
  | _ => ⟨S200000x64, .f32⟩

abbrev hbmTy0_1 (i : Nat) : BufTy := match i % 128 with
  | 0 => ⟨S_, .f32⟩
  | 1 => ⟨S2000000, .f32⟩
  | 2 => ⟨S_, .f32⟩
  | 3 => ⟨S200000, .f32⟩
  | 4 => ⟨S2000000x1, .i32⟩
  | 5 => ⟨S200000, .f32⟩
  | 6 => ⟨S_, .f32⟩
  | 7 => ⟨S200000, .f32⟩
  | 8 => ⟨S200000, .f32⟩
  | 9 => ⟨S200000x1, .f32⟩
  | 10 => ⟨S200000x64, .f32⟩
  | 11 => ⟨S200000x64, .f32⟩
  | 12 => ⟨S200000x64, .f32⟩
  | 13 => ⟨S1x64, .f32⟩
  | 14 => ⟨S200000x64, .f32⟩
  | 15 => ⟨S200000x64, .f32⟩
  | 16 => ⟨S200000x64, .f32⟩
  | 17 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call0_cst : Ref sig .tc := ⟨.hbm, 78, rfl⟩
abbrev main_call0_v0 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_16 : Ref sig .tc := ⟨.hbm, 115, rfl⟩
abbrev main_v77 : Ref sig .tc := ⟨.hbm, 116, rfl⟩
abbrev main_v78 : Ref sig .tc := ⟨.hbm, 117, rfl⟩
abbrev main_c_17 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_21 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  dot_S200000x64_S64x64_S200000x64_1_0_0_1_n_n_wf : DotDims.WF S200000x64 S64x64 S200000x64 [1] [0] [0] [1] [] []

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.Spec.lean ====
/-
  The function both programs compute, written once over the extended reals.

  One SAGE stage sends a destination node's aggregated neighbour row `A r` and its own row `X r` to
  `A r · Wl + b + X r · Wr`: entry `(r, j)` is `∑ₖ A r k · Wl k j + b j + ∑ₖ X r k · Wr k j`, the two sums over the
  64 feature columns. The first layer clamps the result below at zero. The movie side has 100000 rows, the user
  side 200000; the arithmetic is the same at both sizes.
-/
import Idealize.ShloMosaic.PureOps.Ideal
import Idealize.ShloMosaic.Lib.ValueIdx

noncomputable section

namespace Cert.Sage

open Idealize.ShloMosaic Idealize.ShloMosaic.ValueIdx

/-- Movie-side feature matrices: 100000 rows of 64 features. -/
abbrev SMov : Shape := ⟨2, ![100000, 64]⟩
/-- User-side feature matrices: 200000 rows of 64 features. -/
abbrev SUsr : Shape := ⟨2, ![200000, 64]⟩
/-- A weight matrix, 64 × 64. -/
abbrev SWgt : Shape := ⟨2, ![64, 64]⟩
/-- A bias, one entry per output feature. -/
abbrev SBias : Shape := ⟨1, ![64]⟩

/-- The dense stage on the movie side: `A · Wl + b + X · Wr`, entry by entry. -/
def denseMov (A X : FVec Ideal SMov .f32) (Wl Wr : FVec Ideal SWgt .f32) (b : FVec Ideal SBias .f32) : FVec Ideal SMov .f32 :=
  fun i => (∑ k : Fin 64, A (ix2 ⟨(i 0).val, (i 0).isLt⟩ k) * Wl (ix2 k ⟨(i 1).val, (i 1).isLt⟩))
    + b (ix1 ⟨(i 1).val, (i 1).isLt⟩)
    + ∑ k : Fin 64, X (ix2 ⟨(i 0).val, (i 0).isLt⟩ k) * Wr (ix2 k ⟨(i 1).val, (i 1).isLt⟩)

/-- The dense stage on the user side: the same entries over 200000 rows. -/
def denseUsr (A X : FVec Ideal SUsr .f32) (Wl Wr : FVec Ideal SWgt .f32) (b : FVec Ideal SBias .f32) : FVec Ideal SUsr .f32 :=
  fun i => (∑ k : Fin 64, A (ix2 ⟨(i 0).val, (i 0).isLt⟩ k) * Wl (ix2 k ⟨(i 1).val, (i 1).isLt⟩))
    + b (ix1 ⟨(i 1).val, (i 1).isLt⟩)
    + ∑ k : Fin 64, X (ix2 ⟨(i 0).val, (i 0).isLt⟩ k) * Wr (ix2 k ⟨(i 1).val, (i 1).isLt⟩)

/-- The first layer's clamp: every entry's maximum with zero. -/
def relu {S : Shape} (v : FVec Ideal S .f32) : FVec Ideal S .f32 := fun i => max (v i) 0

/-- The second layer has no clamp: the entries as they are. -/
def keep {S : Shape} (v : FVec Ideal S .f32) : FVec Ideal S .f32 := fun i => v i

end Cert.Sage

end
-- ==== Proof.Tiles2000.lean ====
/-
  A block of 2000 rows times a weight matrix, read at one entry.

  The movie-side kernels multiply a block of 2000 rows of 64 features by a 64 × 64 weight matrix into a zero
  accumulator. Over the extended reals entry `(p, q)` of that product is `∑ₖ A p k · W k q`, the sum over the 64
  contracted columns: the contraction index of the product has one axis of extent 64, and the operand indices at
  `(p, q)` and `k` are `(p, k)` on the left and `(k, q)` on the right.
-/
import proofs.«414119_j9405978378811_4_alg».proof.Proof.Gen.KernelIdeal
import Idealize.ShloMosaic.Lib.ValueIdx
import Idealize.ShloMosaic.PureOps.Ideal.Laws

noncomputable section

namespace Cert.KernelIdeal.Tiles

open Cert.KernelIdeal Idealize.ShloMosaic Idealize.ShloMosaic.ValueIdx

/-- The left operand's row is the result's row. -/
theorem lhs2000_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contraction index. -/
theorem lhs2000_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contraction index. -/
theorem rhs2000_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the result's column. -/
theorem rhs2000_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, at row `p` and column `q`: the sum over the 64 shared columns. -/
theorem mm2000_apply (A : FVec Ideal S2000x64 .f32) (W : FVec Ideal S64x64 .f32) (p : Fin 2000) (q : Fin 64) :
    matmul dot_S2000x64_S64x64_S2000x64_1_0_0_1_n_n none A W (constant S2000x64 .f32 0x00000000#32) (ix2 p q)
      = ∑ k : Fin 64, A (ix2 p k) * W (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs2000_0 _ _
    | ⟨1, _⟩ => exact (lhs2000_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs2000_0 _ _).trans hk
    | ⟨1, _⟩ => exact rhs2000_1 _ _)
  rw [el, er]

end Cert.KernelIdeal.Tiles

end
-- ==== Proof.Pay2000.lean ====
/-
  The arithmetic of the movie-side kernels' bodies at one entry of a block of 2000 rows.

  Both layers' bodies form `A·Wl + b + X·Wr` from the loaded blocks: two products of a 2000 × 64 block with a
  64 × 64 matrix into zero accumulators, the bias row broadcast down the 2000 rows, two additions. The first layer
  then takes the maximum with zero; the second stores the sum as it is. At row `p` and column `q` that is
  `∑ₖ A p k · Wl k q + b 0 q + ∑ₖ X p k · Wr k q`, clamped or not.
-/
import proofs.«414119_j9405978378811_4_alg».proof.Proof.Gen.KernelIdeal.Skeleton
import proofs.«414119_j9405978378811_4_alg».proof.Proof.Tiles2000
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.KernelIdeal.Tiles
open Idealize.ShloMosaic Idealize.ShloMosaic.ValueIdx

/-- The first layer's body at row `p`, column `q` of the block: the two row-by-matrix sums, the bias entry of the
    column, and the clamp at zero. -/
theorem pay0_apply (xa : Vec Ideal S2000x64 .f32) (wl : Vec Ideal S64x64 .f32) (xd : Vec Ideal S2000x64 .f32)
    (wr : Vec Ideal S64x64 .f32) (b : Vec Ideal S1x64 .f32) (p : Fin 2000) (q : Fin 64) :
    k0_pay1 (F := Ideal) xa wl xd wr b (ix2 p q)
      = max ((∑ k : Fin 64, xa (ix2 p k) * wl (ix2 k q)) + b (ix2 0 q) + ∑ k : Fin 64, xd (ix2 p k) * wr (ix2 k q)) 0 := by
  unfold k0_pay1
  rw [shapeCast_self, shapeCast_self, maximumf_apply, addf_apply, addf_apply, mm2000_apply, mm2000_apply, broadcast_apply,
    broadcastTo_apply b broadcasts_S1x64_S2000x64 (ix2 p q) (ix2 0 q) (fun a => by
      match a with
      | ⟨0, _⟩ => rfl
      | ⟨1, _⟩ => rfl)]
  show max _ (Ideal.ofBits .f32 0x00000000#32) = _
  rw [Ideal.ofBits_zero_f32]

/-- The second layer's body at row `p`, column `q` of the block: the same sums and bias entry, not clamped. -/
theorem pay2_apply (xa : Vec Ideal S2000x64 .f32) (wl : Vec Ideal S64x64 .f32) (xd : Vec Ideal S2000x64 .f32)
    (wr : Vec Ideal S64x64 .f32) (b : Vec Ideal S1x64 .f32) (p : Fin 2000) (q : Fin 64) :
    k2_pay1 (F := Ideal) xa wl xd wr b (ix2 p q)
      = (∑ k : Fin 64, xa (ix2 p k) * wl (ix2 k q)) + b (ix2 0 q) + ∑ k : Fin 64, xd (ix2 p k) * wr (ix2 k q) := by
  unfold k2_pay1
  rw [shapeCast_self, shapeCast_self, shapeCast_self, addf_apply, addf_apply, mm2000_apply, mm2000_apply,
    broadcastTo_apply b broadcasts_S1x64_S2000x64 (ix2 p q) (ix2 0 q) (fun a => by
      match a with
      | ⟨0, _⟩ => rfl
      | ⟨1, _⟩ => rfl)]

end Cert.KernelIdeal.Pay

end
-- ==== Proof.Layer1Movie.lean ====
/-
  The first layer's movie-side kernel, as one function of the arrays it is entered with.

  The kernel runs over 50 blocks of 2000 destination rows. At block `t` it loads rows `2000·t … 2000·t + 1999` of
  the aggregated neighbour features `A` and of the destination nodes' own features `X`, the two whole weight
  matrices and the bias row, and stores `A·Wl + b + X·Wr`, passed through `relu`, into the same rows of its result.
  Row `r` of the result therefore depends on row `r` of `A` and `X` only, and the 50 blocks tile the 100000 rows:
  the result array is `relu (denseMov A X Wl Wr b)`.
-/
import proofs.«414119_j9405978378811_4_alg».proof.Proof.Gen.KernelIdeal.Frame
import proofs.«414119_j9405978378811_4_alg».proof.Proof.Spec
import proofs.«414119_j9405978378811_4_alg».proof.Proof.Pay2000
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1Movie

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

theorem zero_offsets : (![0, 0] : Fin 2 → Nat) = fun _ => 0 := funext fun a => by fin_cases a <;> rfl

-- the contents the kernel is entered with: every array's and every other buffer's
variable (V : (c : Dev nD) → (b : Ref sig .tc) → Buf (Elt Ideal) ((c : Thread nD τ).loc b))

/-- The aggregated neighbour features the kernel is entered with. -/
abbrev arrA (c : Dev nD) : FVec Ideal SMov .f32 := V c main_v18
/-- The destination nodes' own features. -/
abbrev arrX (c : Dev nD) : FVec Ideal SMov .f32 := V c main_arg1
/-- The weights applied to the aggregate. -/
abbrev arrWl (c : Dev nD) : FVec Ideal SWgt .f32 := V c main_arg4
/-- The weights applied to the node's own features. -/
abbrev arrWr (c : Dev nD) : FVec Ideal SWgt .f32 := V c main_arg5
/-- The bias, as the one-row matrix the kernel is given. -/
abbrev arrB (c : Dev nD) : FVec Ideal S1x64 .f32 := V c main_v38
/-- The bias as a vector: the row's entries. -/
def bias (c : Dev nD) : FVec Ideal SBias .f32 := fun j => arrB V c (ix2 0 ⟨(j 0).val, (j 0).isLt⟩)

/-- What the kernel's result array holds after the run, as one function of the entry contents. -/
def result (c : Dev nD) : FVec Ideal SMov .f32 :=
  relu (denseMov (arrA V c) (arrX V c) (arrWl V c) (arrWr V c) (bias V c))

/-- The blocks the kernel's windows hold at grid point `t`. -/
abbrev blkA (c : Dev nD) (t : Fin cfg0.N) : Vec Ideal S2000x64 .f32 := iblk0 V c 0 t
abbrev blkX (c : Dev nD) (t : Fin cfg0.N) : Vec Ideal S2000x64 .f32 := iblk0 V c 1 t
abbrev blkWl (c : Dev nD) (t : Fin cfg0.N) : Vec Ideal S64x64 .f32 := iblk0 V c 2 t
abbrev blkWr (c : Dev nD) (t : Fin cfg0.N) : Vec Ideal S64x64 .f32 := iblk0 V c 3 t
abbrev blkB (c : Dev nD) (t : Fin cfg0.N) : Vec Ideal S1x64 .f32 := iblk0 V c 4 t

/-- The printed index maps over the 50 grid points: the row-block windows sit at block `t`, the weights and the
    bias at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- Row `p` of block `t` of the aggregate is row `2000·t + p` of the array. -/
theorem blkA_apply (c : Dev nD) (t : Fin cfg0.N) (p : Fin 2000) (k : Fin 64) :
    blkA V c t (ix2 p k) = arrA V c (ix2 ⟨t.val * 2000 + p.val, by have := point_lt t; omega⟩ k) := by
  show V c main_v18 (((cfg0.win 0).blk t).view.emb (ix2 p k)) = V c main_v18 _
  refine congrArg (V c main_v18) (funext fun a => Fin.ext ?_)
  obtain ⟨e0, e1, -⟩ := idx_facts t
  match a with
  | ⟨0, _⟩ => show win0_0.index t (0 : Fin 2) * 2000 + 1 * p.val = t.val * 2000 + p.val; omega
  | ⟨1, _⟩ => show win0_0.index t (1 : Fin 2) * 64 + 1 * k.val = k.val; omega

/-- Row `p` of block `t` of the destination nodes' own features is row `2000·t + p` of the array. -/
theorem blkX_apply (c : Dev nD) (t : Fin cfg0.N) (p : Fin 2000) (k : Fin 64) :
    blkX V c t (ix2 p k) = arrX V c (ix2 ⟨t.val * 2000 + p.val, by have := point_lt t; omega⟩ k) := by
  show V c main_arg1 (((cfg0.win 1).blk t).view.emb (ix2 p k)) = V c main_arg1 _
  refine congrArg (V c main_arg1) (funext fun a => Fin.ext ?_)
  obtain ⟨-, -, e0, e1, -⟩ := idx_facts t
  match a with
  | ⟨0, _⟩ => show win0_1.index t (0 : Fin 2) * 2000 + 1 * p.val = t.val * 2000 + p.val; omega
  | ⟨1, _⟩ => show win0_1.index t (1 : Fin 2) * 64 + 1 * k.val = k.val; omega

/-- Every grid point holds the whole of the aggregate's weight matrix. -/
theorem blkWl_apply (c : Dev nD) (t : Fin cfg0.N) (k q : Fin 64) : blkWl V c t (ix2 k q) = arrWl V c (ix2 k q) := by
  show V c main_arg4 (((cfg0.win 2).blk t).view.emb (ix2 k q)) = V c main_arg4 _
  refine congrArg (V c main_arg4) (funext fun a => Fin.ext ?_)
  obtain ⟨-, -, -, -, e0, e1, -⟩ := idx_facts t
  match a with
  | ⟨0, _⟩ => show win0_2.index t (0 : Fin 2) * 64 + 1 * k.val = k.val; omega
  | ⟨1, _⟩ => show win0_2.index t (1 : Fin 2) * 64 + 1 * q.val = q.val; omega

/-- Every grid point holds the whole of the own-feature weight matrix. -/
theorem blkWr_apply (c : Dev nD) (t : Fin cfg0.N) (k q : Fin 64) : blkWr V c t (ix2 k q) = arrWr V c (ix2 k q) := by
  show V c main_arg5 (((cfg0.win 3).blk t).view.emb (ix2 k q)) = V c main_arg5 _
  refine congrArg (V c main_arg5) (funext fun a => Fin.ext ?_)
  obtain ⟨-, -, -, -, -, -, e0, e1, -⟩ := idx_facts t
  match a with
  | ⟨0, _⟩ => show win0_3.index t (0 : Fin 2) * 64 + 1 * k.val = k.val; omega
  | ⟨1, _⟩ => show win0_3.index t (1 : Fin 2) * 64 + 1 * q.val = q.val; omega

/-- Every grid point holds the whole bias row. -/
theorem blkB_apply (c : Dev nD) (t : Fin cfg0.N) (q : Fin 64) : blkB V c t (ix2 0 q) = arrB V c (ix2 0 q) := by
  show V c main_v38 (((cfg0.win 4).blk t).view.emb (ix2 0 q)) = V c main_v38 _
  refine congrArg (V c main_v38) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 64 + 1 * q.val = q.val; omega

/-- What grid point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S2000x64) zero_offsets, View.ld_unit_zero (S := S64x64) zero_offsets,
    View.ld_unit_zero (S := S1x64) zero_offsets]
  funext j
  obtain ⟨p, q, rfl⟩ : ∃ (p : Fin 2000) (q : Fin 64), j = ix2 p q := ⟨j 0, j 1, eq_ix2 j⟩
  show k0_pay1 (F := Ideal) (blkA V c t) (blkWl V c t) (blkX V c t) (blkWr V c t) (blkB V c t) (ix2 p q)
    = result V c (((cfg0.win 5).blk t).view.emb (ix2 p q))
  have hrow : ((cfg0.win 5).blk t).view.emb (ix2 p q)
      = ix2 ⟨t.val * 2000 + p.val, by have := point_lt t; omega⟩ q := funext fun a => Fin.ext (by
    obtain ⟨-, -, -, -, -, -, -, -, -, -, e0, e1⟩ := idx_facts t
    match a with
    | ⟨0, _⟩ => show win0_5.index t (0 : Fin 2) * 2000 + 1 * p.val = t.val * 2000 + p.val; omega
    | ⟨1, _⟩ => show win0_5.index t (1 : Fin 2) * 64 + 1 * q.val = q.val; omega)
  rw [pay0_apply, hrow]
  simp only [blkA_apply, blkX_apply, blkWl_apply, blkWr_apply, blkB_apply]
  rfl

/-- An index of the result array is in grid point `t`'s block iff its row is among the block's 2000 rows. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v39).slice (win0_5.rect t)).set ↔ _
  rw [View.set_slice_whole, Rect.mem_set_unit]
  exact Iff.rfl

/-- The 50 blocks tile the 100000 rows: row `r` is in block `r / 2000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 2000, lt_of_lt_of_eq (by omega) N_0.symm⟩
  obtain ⟨-, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

/-- The result array after the run is `result` of the entry contents. -/
theorem final (c : Dev nD) : (dat0 V c).arrAt 5 cfg0.N = result V c :=
  (dat0 V c).arrAt_eq_of_cover 5 (result V c) (fun t _ => flushed_eq V c t) cover

end Cert.KernelIdeal.Layer1Movie

end
-- ==== Proof.Tiles8000.lean ====
/-
  A block of 8000 rows times a weight matrix, read at one entry.

  The user-side kernels multiply a block of 8000 rows of 64 features by a 64 × 64 weight matrix into a zero
  accumulator. Over the extended reals entry `(p, q)` of that product is `∑ₖ A p k · W k q`, the sum over the 64
  contracted columns: the contraction index of the product has one axis of extent 64, and the operand indices at
  `(p, q)` and `k` are `(p, k)` on the left and `(k, q)` on the right.
-/
import proofs.«414119_j9405978378811_4_alg».proof.Proof.Gen.KernelIdeal
import Idealize.ShloMosaic.Lib.ValueIdx
import Idealize.ShloMosaic.PureOps.Ideal.Laws

noncomputable section

namespace Cert.KernelIdeal.Tiles

open Cert.KernelIdeal Idealize.ShloMosaic Idealize.ShloMosaic.ValueIdx

/-- The left operand's row is the result's row. -/
theorem lhs8000_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- The left operand's column is the contraction index. -/
theorem lhs8000_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- The right operand's row is the contraction index. -/
theorem rhs8000_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- The right operand's column is the result's column. -/
theorem rhs8000_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The block product into a zero accumulator, at row `p` and column `q`: the sum over the 64 shared columns. -/
theorem mm8000_apply (A : FVec Ideal S8000x64 .f32) (W : FVec Ideal S64x64 .f32) (p : Fin 8000) (q : Fin 64) :
    matmul dot_S8000x64_S64x64_S8000x64_1_0_0_1_n_n none A W (constant S8000x64 .f32 0x00000000#32) (ix2 p q)
      = ∑ k : Fin 64, A (ix2 p k) * W (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs8000_0 _ _
    | ⟨1, _⟩ => exact (lhs8000_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs8000_0 _ _).trans hk
    | ⟨1, _⟩ => exact rhs8000_1 _ _)
  rw [el, er]

end Cert.KernelIdeal.Tiles

end
-- ==== Proof.Pay8000.lean ====
/-
  The arithmetic of the user-side kernels' bodies at one entry of a block of 8000 rows.

  Both layers' bodies form `A·Wl + b + X·Wr` from the loaded blocks: two products of a 8000 × 64 block with a
  64 × 64 matrix into zero accumulators, the bias row broadcast down the 8000 rows, two additions. The first layer
  then takes the maximum with zero; the second stores the sum as it is. At row `p` and column `q` that is
  `∑ₖ A p k · Wl k q + b 0 q + ∑ₖ X p k · Wr k q`, clamped or not.
-/
import proofs.«414119_j9405978378811_4_alg».proof.Proof.Gen.KernelIdeal.Skeleton
import proofs.«414119_j9405978378811_4_alg».proof.Proof.Tiles8000
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.KernelIdeal.Tiles
open Idealize.ShloMosaic Idealize.ShloMosaic.ValueIdx

/-- The first layer's body at row `p`, column `q` of the block: the two row-by-matrix sums, the bias entry of the
    column, and the clamp at zero. -/
theorem pay1_apply (xa : Vec Ideal S8000x64 .f32) (wl : Vec Ideal S64x64 .f32) (xd : Vec Ideal S8000x64 .f32)
    (wr : Vec Ideal S64x64 .f32) (b : Vec Ideal S1x64 .f32) (p : Fin 8000) (q : Fin 64) :
    k1_pay1 (F := Ideal) xa wl xd wr b (ix2 p q)
      = max ((∑ k : Fin 64, xa (ix2 p k) * wl (ix2 k q)) + b (ix2 0 q) + ∑ k : Fin 64, xd (ix2 p k) * wr (ix2 k q)) 0 := by
  unfold k1_pay1
  rw [shapeCast_self, shapeCast_self, maximumf_apply, addf_apply, addf_apply, mm8000_apply, mm8000_apply, broadcast_apply,
    broadcastTo_apply b broadcasts_S1x64_S8000x64 (ix2 p q) (ix2 0 q) (fun a => by
      match a with
      | ⟨0, _⟩ => rfl
      | ⟨1, _⟩ => rfl)]
  show max _ (Ideal.ofBits .f32 0x00000000#32) = _
  rw [Ideal.ofBits_zero_f32]

/-- The second layer's body at row `p`, column `q` of the block: the same sums and bias entry, not clamped. -/
theorem pay3_apply (xa : Vec Ideal S8000x64 .f32) (wl : Vec Ideal S64x64 .f32) (xd : Vec Ideal S8000x64 .f32)
    (wr : Vec Ideal S64x64 .f32) (b : Vec Ideal S1x64 .f32) (p : Fin 8000) (q : Fin 64) :
    k3_pay1 (F := Ideal) xa wl xd wr b (ix2 p q)
      = (∑ k : Fin 64, xa (ix2 p k) * wl (ix2 k q)) + b (ix2 0 q) + ∑ k : Fin 64, xd (ix2 p k) * wr (ix2 k q) := by
  unfold k3_pay1
  rw [shapeCast_self, shapeCast_self, shapeCast_self, addf_apply, addf_apply, mm8000_apply, mm8000_apply,
    broadcastTo_apply b broadcasts_S1x64_S8000x64 (ix2 p q) (ix2 0 q) (fun a => by
      match a with
      | ⟨0, _⟩ => rfl
      | ⟨1, _⟩ => rfl)]

end Cert.KernelIdeal.Pay

end
-- ==== Proof.Layer1User.lean ====
/-
  The first layer's user-side kernel, as one function of the arrays it is entered with.

  The kernel runs over 25 blocks of 8000 destination rows. At block `t` it loads rows `8000·t … 8000·t + 1999` of
  the aggregated neighbour features `A` and of the destination nodes' own features `X`, the two whole weight
  matrices and the bias row, and stores `A·Wl + b + X·Wr`, passed through `relu`, into the same rows of its result.
  Row `r` of the result therefore depends on row `r` of `A` and `X` only, and the 25 blocks tile the 200000 rows:
  the result array is `relu (denseUsr A X Wl Wr b)`.
-/
import proofs.«414119_j9405978378811_4_alg».proof.Proof.Gen.KernelIdeal.Frame
import proofs.«414119_j9405978378811_4_alg».proof.Proof.Spec
import proofs.«414119_j9405978378811_4_alg».proof.Proof.Pay8000
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1User

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

theorem zero_offsets : (![0, 0] : Fin 2 → Nat) = fun _ => 0 := funext fun a => by fin_cases a <;> rfl

-- the contents the kernel is entered with: every array's and every other buffer's
variable (V : (c : Dev nD) → (b : Ref sig .tc) → Buf (Elt Ideal) ((c : Thread nD τ).loc b))

/-- The aggregated neighbour features the kernel is entered with. -/
abbrev arrA (c : Dev nD) : FVec Ideal SUsr .f32 := V c main_v37
/-- The destination nodes' own features. -/
abbrev arrX (c : Dev nD) : FVec Ideal SUsr .f32 := V c main_arg0
/-- The weights applied to the aggregate. -/
abbrev arrWl (c : Dev nD) : FVec Ideal SWgt .f32 := V c main_arg6
/-- The weights applied to the node's own features. -/
abbrev arrWr (c : Dev nD) : FVec Ideal SWgt .f32 := V c main_arg7
/-- The bias, as the one-row matrix the kernel is given. -/
abbrev arrB (c : Dev nD) : FVec Ideal S1x64 .f32 := V c main_v40
/-- The bias as a vector: the row's entries. -/
def bias (c : Dev nD) : FVec Ideal SBias .f32 := fun j => arrB V c (ix2 0 ⟨(j 0).val, (j 0).isLt⟩)

/-- What the kernel's result array holds after the run, as one function of the entry contents. -/
def result (c : Dev nD) : FVec Ideal SUsr .f32 :=
  relu (denseUsr (arrA V c) (arrX V c) (arrWl V c) (arrWr V c) (bias V c))

/-- The blocks the kernel's windows hold at grid point `t`. -/
abbrev blkA (c : Dev nD) (t : Fin cfg1.N) : Vec Ideal S8000x64 .f32 := iblk1 V c 0 t
abbrev blkX (c : Dev nD) (t : Fin cfg1.N) : Vec Ideal S8000x64 .f32 := iblk1 V c 1 t
abbrev blkWl (c : Dev nD) (t : Fin cfg1.N) : Vec Ideal S64x64 .f32 := iblk1 V c 2 t
abbrev blkWr (c : Dev nD) (t : Fin cfg1.N) : Vec Ideal S64x64 .f32 := iblk1 V c 3 t
abbrev blkB (c : Dev nD) (t : Fin cfg1.N) : Vec Ideal S1x64 .f32 := iblk1 V c 4 t

/-- The printed index maps over the 25 grid points: the row-block windows sit at block `t`, the weights and the
    bias at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 25 := lt_of_lt_of_eq t.isLt N_1

/-- Row `p` of block `t` of the aggregate is row `8000·t + p` of the array. -/
theorem blkA_apply (c : Dev nD) (t : Fin cfg1.N) (p : Fin 8000) (k : Fin 64) :
    blkA V c t (ix2 p k) = arrA V c (ix2 ⟨t.val * 8000 + p.val, by have := point_lt t; omega⟩ k) := by
  show V c main_v37 (((cfg1.win 0).blk t).view.emb (ix2 p k)) = V c main_v37 _
  refine congrArg (V c main_v37) (funext fun a => Fin.ext ?_)
  obtain ⟨e0, e1, -⟩ := idx_facts t
  match a with
  | ⟨0, _⟩ => show win1_0.index t (0 : Fin 2) * 8000 + 1 * p.val = t.val * 8000 + p.val; omega
  | ⟨1, _⟩ => show win1_0.index t (1 : Fin 2) * 64 + 1 * k.val = k.val; omega

/-- Row `p` of block `t` of the destination nodes' own features is row `8000·t + p` of the array. -/
theorem blkX_apply (c : Dev nD) (t : Fin cfg1.N) (p : Fin 8000) (k : Fin 64) :
    blkX V c t (ix2 p k) = arrX V c (ix2 ⟨t.val * 8000 + p.val, by have := point_lt t; omega⟩ k) := by
  show V c main_arg0 (((cfg1.win 1).blk t).view.emb (ix2 p k)) = V c main_arg0 _
  refine congrArg (V c main_arg0) (funext fun a => Fin.ext ?_)
  obtain ⟨-, -, e0, e1, -⟩ := idx_facts t
  match a with
  | ⟨0, _⟩ => show win1_1.index t (0 : Fin 2) * 8000 + 1 * p.val = t.val * 8000 + p.val; omega
  | ⟨1, _⟩ => show win1_1.index t (1 : Fin 2) * 64 + 1 * k.val = k.val; omega

/-- Every grid point holds the whole of the aggregate's weight matrix. -/
theorem blkWl_apply (c : Dev nD) (t : Fin cfg1.N) (k q : Fin 64) : blkWl V c t (ix2 k q) = arrWl V c (ix2 k q) := by
  show V c main_arg6 (((cfg1.win 2).blk t).view.emb (ix2 k q)) = V c main_arg6 _
  refine congrArg (V c main_arg6) (funext fun a => Fin.ext ?_)
  obtain ⟨-, -, -, -, e0, e1, -⟩ := idx_facts t
  match a with
  | ⟨0, _⟩ => show win1_2.index t (0 : Fin 2) * 64 + 1 * k.val = k.val; omega
  | ⟨1, _⟩ => show win1_2.index t (1 : Fin 2) * 64 + 1 * q.val = q.val; omega

/-- Every grid point holds the whole of the own-feature weight matrix. -/
theorem blkWr_apply (c : Dev nD) (t : Fin cfg1.N) (k q : Fin 64) : blkWr V c t (ix2 k q) = arrWr V c (ix2 k q) := by
  show V c main_arg7 (((cfg1.win 3).blk t).view.emb (ix2 k q)) = V c main_arg7 _
  refine congrArg (V c main_arg7) (funext fun a => Fin.ext ?_)
  obtain ⟨-, -, -, -, -, -, e0, e1, -⟩ := idx_facts t
  match a with
  | ⟨0, _⟩ => show win1_3.index t (0 : Fin 2) * 64 + 1 * k.val = k.val; omega
  | ⟨1, _⟩ => show win1_3.index t (1 : Fin 2) * 64 + 1 * q.val = q.val; omega

/-- Every grid point holds the whole bias row. -/
theorem blkB_apply (c : Dev nD) (t : Fin cfg1.N) (q : Fin 64) : blkB V c t (ix2 0 q) = arrB V c (ix2 0 q) := by
  show V c main_v40 (((cfg1.win 4).blk t).view.emb (ix2 0 q)) = V c main_v40 _
  refine congrArg (V c main_v40) (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 64 + 1 * q.val = q.val; omega

/-- What grid point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S8000x64) zero_offsets, View.ld_unit_zero (S := S64x64) zero_offsets,
    View.ld_unit_zero (S := S1x64) zero_offsets]
  funext j
  obtain ⟨p, q, rfl⟩ : ∃ (p : Fin 8000) (q : Fin 64), j = ix2 p q := ⟨j 0, j 1, eq_ix2 j⟩
  show k1_pay1 (F := Ideal) (blkA V c t) (blkWl V c t) (blkX V c t) (blkWr V c t) (blkB V c t) (ix2 p q)
    = result V c (((cfg1.win 5).blk t).view.emb (ix2 p q))
  have hrow : ((cfg1.win 5).blk t).view.emb (ix2 p q)
      = ix2 ⟨t.val * 8000 + p.val, by have := point_lt t; omega⟩ q := funext fun a => Fin.ext (by
    obtain ⟨-, -, -, -, -, -, -, -, -, -, e0, e1⟩ := idx_facts t
    match a with
    | ⟨0, _⟩ => show win1_5.index t (0 : Fin 2) * 8000 + 1 * p.val = t.val * 8000 + p.val; omega
    | ⟨1, _⟩ => show win1_5.index t (1 : Fin 2) * 64 + 1 * q.val = q.val; omega)
  rw [pay1_apply, hrow]
  simp only [blkA_apply, blkX_apply, blkWl_apply, blkWr_apply, blkB_apply]
  rfl

/-- An index of the result array is in grid point `t`'s block iff its row is among the block's 8000 rows. -/
theorem mem_blk (t : Fin cfg1.N) (i : S200000x64.Idx) :
    i ∈ ((cfg1.win 5).blk t).view.set ↔ ∀ a : Fin 2, win1_5.index t a * S8000x64.size a ≤ (i a).val ∧ (i a).val < win1_5.index t a * S8000x64.size a + S8000x64.size a := by
  show i ∈ ((View.whole main_v41).slice (win1_5.rect t)).set ↔ _
  rw [View.set_slice_whole, Rect.mem_set_unit]
  exact Iff.rfl

/-- The 25 blocks tile the 200000 rows: row `r` is in block `r / 8000`. -/
theorem cover (i : S200000x64.Idx) : ∃ t : Fin cfg1.N, (cfg1.win 5).flush t = true ∧ i ∈ ((cfg1.win 5).blk t).view.set := by
  have hi0 : (i 0).val < 200000 := (i 0).isLt
  have hi1 : (i 1).val < 64 := (i 1).isLt
  let t : Fin cfg1.N := ⟨(i 0).val / 8000, lt_of_lt_of_eq (by omega) N_1.symm⟩
  obtain ⟨-, -, -, -, -, -, -, -, -, -, e0, e1⟩ := idx_facts t
  have ht : t.val = (i 0).val / 8000 := rfl
  refine ⟨t, flush1_5 t, ?_⟩
  rw [mem_blk]
  intro a
  match a with
  | ⟨0, _⟩ => show win1_5.index t (0 : Fin 2) * 8000 ≤ (i 0).val ∧ (i 0).val < win1_5.index t (0 : Fin 2) * 8000 + 8000; omega
  | ⟨1, _⟩ => show win1_5.index t (1 : Fin 2) * 64 ≤ (i 1).val ∧ (i 1).val < win1_5.index t (1 : Fin 2) * 64 + 64; omega

/-- The result array after the run is `result` of the entry contents. -/
theorem final (c : Dev nD) : (dat1 V c).arrAt 5 cfg1.N = result V c :=
  (dat1 V c).arrAt_eq_of_cover 5 (result V c) (fun t _ => flushed_eq V c t) cover

end Cert.KernelIdeal.Layer1User

end
-- ==== Proof.RefStages.lean ====
/-
  The reference, stage by stage, in the words of the specification.

  The reference computes each SAGE stage as `dot_general A Wl + broadcast b + dot_general X Wr`: a host matrix
  product is, over the extended reals, the sum over the contracted column, and the bias is broadcast along the rows,
  so the stage is `denseMov` / `denseUsr` of its operands, and `relu` (a maximum with a zero splat) is the clamp.
  The aggregation in front of each stage (gather the source rows along the edges, add them up per destination,
  divide by the clamped edge count) is the same text in both layers; it is kept closed here: the second layer's
  aggregate is the first layer's aggregate function applied to the first layer's outputs.
-/
import proofs.«414119_j9405978378811_4_alg».proof.Proof.Gen.ReferenceIdeal.Read
import proofs.«414119_j9405978378811_4_alg».proof.Proof.Spec
import Idealize.ShloMosaic.Lib.ValueIdx
import Idealize.ShloMosaic.PureOps.Ideal.Laws

noncomputable section

namespace Cert.ReferenceIdeal.Stages

open Cert.ReferenceIdeal Cert.ReferenceIdeal.Read Cert.Sage
open Idealize.ShloMosaic Idealize.ShloMosaic.ValueIdx

/-! ## The index functions of the host operations, as coordinates -/

theorem lrow_mov (i : S100000x64.Idx) (k : Fin 64) : lidx_main_v23 i k = ix2 ⟨(i 0).val, (i 0).isLt⟩ k :=
  funext fun a => by match a with | ⟨0, _⟩ => rfl | ⟨1, _⟩ => rfl
theorem rcol_mov (i : S100000x64.Idx) (k : Fin 64) : ridx_main_v23 i k = ix2 k ⟨(i 1).val, (i 1).isLt⟩ :=
  funext fun a => by match a with | ⟨0, _⟩ => rfl | ⟨1, _⟩ => rfl
theorem bcol_mov (i : S100000x64.Idx) : idx_main_v20 (idx_main_v21 i) = ix1 ⟨(i 1).val, (i 1).isLt⟩ :=
  funext fun a => by match a with | ⟨0, _⟩ => rfl
theorem lrow_usr (i : S200000x64.Idx) (k : Fin 64) : lidx_main_v48 i k = ix2 ⟨(i 0).val, (i 0).isLt⟩ k :=
  funext fun a => by match a with | ⟨0, _⟩ => rfl | ⟨1, _⟩ => rfl
theorem rcol_usr (i : S200000x64.Idx) (k : Fin 64) : ridx_main_v48 i k = ix2 k ⟨(i 1).val, (i 1).isLt⟩ :=
  funext fun a => by match a with | ⟨0, _⟩ => rfl | ⟨1, _⟩ => rfl
theorem bcol_usr (i : S200000x64.Idx) : idx_main_v45 (idx_main_v46 i) = ix1 ⟨(i 1).val, (i 1).isLt⟩ :=
  funext fun a => by match a with | ⟨0, _⟩ => rfl

/-! ## One stage of host operations is the specification's dense stage -/

/-- Movie side: two host products, the bias broadcast along the rows, two additions. -/
theorem dense_mov (A X : (⟨S100000x64, .f32⟩ : BufTy).Contents (Elt Ideal)) (Wl Wr : (⟨S64x64, .f32⟩ : BufTy).Contents (Elt Ideal)) (b : (⟨S64, .f32⟩ : BufTy).Contents (Elt Ideal)) :
    addf (addf (val_main_v23 (F := Ideal) A Wl) (val_main_v21 (F := Ideal) b)) (val_main_v23 (F := Ideal) X Wr)
      = denseMov A X Wl Wr b := by
  funext i
  show (val_main_v23 (F := Ideal) A Wl i + val_main_v21 (F := Ideal) b i) + val_main_v23 (F := Ideal) X Wr i = _
  rw [val_main_v23_apply, val_main_v23_apply, val_main_v21_apply, val_main_v20_apply]
  simp only [lrow_mov, rcol_mov, bcol_mov]
  rfl

/-- User side: the same over 200000 rows. -/
theorem dense_usr (A X : (⟨S200000x64, .f32⟩ : BufTy).Contents (Elt Ideal)) (Wl Wr : (⟨S64x64, .f32⟩ : BufTy).Contents (Elt Ideal)) (b : (⟨S64, .f32⟩ : BufTy).Contents (Elt Ideal)) :
    addf (addf (val_main_v48 (F := Ideal) A Wl) (val_main_v46 (F := Ideal) b)) (val_main_v48 (F := Ideal) X Wr)
      = denseUsr A X Wl Wr b := by
  funext i
  show (val_main_v48 (F := Ideal) A Wl i + val_main_v46 (F := Ideal) b i) + val_main_v48 (F := Ideal) X Wr i = _
  rw [val_main_v48_apply, val_main_v48_apply, val_main_v46_apply, val_main_v45_apply]
  simp only [lrow_usr, rcol_usr, bcol_usr]
  rfl

/-- A maximum with the zero splat is the clamp (movie side). -/
theorem relu_mov (v : (⟨S100000x64, .f32⟩ : BufTy).Contents (Elt Ideal)) : maximumf v (val_main_call1_v0 (F := Ideal)) = relu v := by
  funext i
  show max (v i) (val_main_call1_v0 (F := Ideal) i) = max (v i) 0
  rw [val_main_call1_v0_apply, val_main_call1_cst_apply]
  show max (v i) (Ideal.ofBits .f32 0x00000000#32) = _
  rw [Ideal.ofBits_zero_f32]

/-- A maximum with the zero splat is the clamp (user side). -/
theorem relu_usr (v : (⟨S200000x64, .f32⟩ : BufTy).Contents (Elt Ideal)) : maximumf v (val_main_call0_v0 (F := Ideal)) = relu v := by
  funext i
  show max (v i) (val_main_call0_v0 (F := Ideal) i) = max (v i) 0
  rw [val_main_call0_v0_apply, val_main_call0_cst_apply]
  show max (v i) (Ideal.ofBits .f32 0x00000000#32) = _
  rw [Ideal.ofBits_zero_f32]

/-! ## The two layers

`val_main_v18 x src dst` is the movie-side aggregate of user-side features `x` along the edges (the mean of the source rows
per destination movie, zero for a movie with no edge), `val_main_v43 x src dst` the user-side aggregate of movie-side features. -/

/-- The first layer's movie features: the clamped dense stage of the aggregated user inputs and the movie inputs. -/
def hidMov (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a4 a5 : (⟨S64x64, .f32⟩ : BufTy).Contents (Elt Ideal)) (a12 : (⟨S64, .f32⟩ : BufTy).Contents (Elt Ideal)) : FVec Ideal SMov .f32 :=
  relu (denseMov (val_main_v18 (F := Ideal) a0 a2 a3) a1 a4 a5 a12)

/-- The first layer's user features. -/
def hidUsr (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a6 a7 : (⟨S64x64, .f32⟩ : BufTy).Contents (Elt Ideal)) (a13 : (⟨S64, .f32⟩ : BufTy).Contents (Elt Ideal)) : FVec Ideal SUsr .f32 :=
  relu (denseUsr (val_main_v43 (F := Ideal) a1 a2 a3) a0 a6 a7 a13)

/-- The second layer's movie features: the dense stage of the aggregated first-layer user features and the first-layer
    movie features. -/
def outMov (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a4 a5 a6 a7 a8 a9 : (⟨S64x64, .f32⟩ : BufTy).Contents (Elt Ideal)) (a12 a13 a14 : (⟨S64, .f32⟩ : BufTy).Contents (Elt Ideal)) : FVec Ideal SMov .f32 :=
  keep (denseMov (val_main_v18 (F := Ideal) (hidUsr a0 a1 a2 a3 a6 a7 a13) a2 a3) (hidMov a0 a1 a2 a3 a4 a5 a12) a8 a9 a14)

/-- The second layer's user features. -/
def outUsr (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a4 a5 a6 a7 a10 a11 : (⟨S64x64, .f32⟩ : BufTy).Contents (Elt Ideal)) (a12 a13 a15 : (⟨S64, .f32⟩ : BufTy).Contents (Elt Ideal)) : FVec Ideal SUsr .f32 :=
  keep (denseUsr (val_main_v43 (F := Ideal) (hidMov a0 a1 a2 a3 a4 a5 a12) a2 a3) (hidUsr a0 a1 a2 a3 a6 a7 a13) a10 a11 a15)

/-- The reference's first-layer movie features are `hidMov`. -/
theorem hidMov_eq (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a4 a5 : (⟨S64x64, .f32⟩ : BufTy).Contents (Elt Ideal)) (a12 : (⟨S64, .f32⟩ : BufTy).Contents (Elt Ideal)) :
    val_main_v51 (F := Ideal) a0 a1 a2 a3 a4 a5 a12 = hidMov a0 a1 a2 a3 a4 a5 a12 := by
  unfold val_main_v51 val_main_v24 val_main_v22 val_main_v19 hidMov
  rw [relu_mov]
  exact congrArg relu (dense_mov _ _ _ _ _)

/-- The reference's first-layer user features are `hidUsr`. -/
theorem hidUsr_eq (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a6 a7 : (⟨S64x64, .f32⟩ : BufTy).Contents (Elt Ideal)) (a13 : (⟨S64, .f32⟩ : BufTy).Contents (Elt Ideal)) :
    val_main_v50 (F := Ideal) a0 a1 a2 a3 a6 a7 a13 = hidUsr a0 a1 a2 a3 a6 a7 a13 := by
  unfold val_main_v50 val_main_v49 val_main_v47 val_main_v44 hidUsr
  rw [relu_usr]
  exact congrArg relu (dense_usr _ _ _ _ _)

/-- The second layer's movie-side aggregate is the first layer's aggregate function at the first layer's user features. -/
theorem agg2_mov (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a6 a7 : (⟨S64x64, .f32⟩ : BufTy).Contents (Elt Ideal)) (a13 : (⟨S64, .f32⟩ : BufTy).Contents (Elt Ideal)) :
    val_main_v70 (F := Ideal) a0 a1 a2 a3 a6 a7 a13
      = val_main_v18 (F := Ideal) (val_main_v50 (F := Ideal) a0 a1 a2 a3 a6 a7 a13) a2 a3 := rfl

/-- The second layer's user-side aggregate is the first layer's aggregate function at the first layer's movie features. -/
theorem agg2_usr (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a4 a5 : (⟨S64x64, .f32⟩ : BufTy).Contents (Elt Ideal)) (a12 : (⟨S64, .f32⟩ : BufTy).Contents (Elt Ideal)) :
    val_main_v95 (F := Ideal) a0 a1 a2 a3 a4 a5 a12
      = val_main_v43 (F := Ideal) (val_main_v51 (F := Ideal) a0 a1 a2 a3 a4 a5 a12) a2 a3 := rfl

/-- The reference's second result (the movie features) is `outMov`. -/
theorem outMov_eq (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a4 a5 a6 a7 a8 a9 : (⟨S64x64, .f32⟩ : BufTy).Contents (Elt Ideal)) (a12 a13 a14 : (⟨S64, .f32⟩ : BufTy).Contents (Elt Ideal)) :
    val_main_v76 (F := Ideal) a0 a1 a2 a3 a4 a5 a6 a7 a8 a9 a12 a13 a14 = outMov a0 a1 a2 a3 a4 a5 a6 a7 a8 a9 a12 a13 a14 := by
  unfold val_main_v76 val_main_v74 val_main_v71 val_main_v75 outMov
  rw [agg2_mov, hidUsr_eq, hidMov_eq]
  exact dense_mov _ _ _ _ _

/-- The reference's first result (the user features) is `outUsr`. -/
theorem outUsr_eq (a0 : (⟨S200000x64, .f32⟩ : BufTy).Contents (Elt Ideal)) (a1 : (⟨S100000x64, .f32⟩ : BufTy).Contents (Elt Ideal)) (a2 a3 : (⟨S2000000, .i32⟩ : BufTy).Contents (Elt Ideal))
    (a4 a5 a6 a7 a10 a11 : (⟨S64x64, .f32⟩ : BufTy).Contents (Elt Ideal)) (a12 a13 a15 : (⟨S64, .f32⟩ : BufTy).Contents (Elt Ideal)) :
    val_main_v101 (F := Ideal) a0 a1 a2 a3 a4 a5 a6 a7 a10 a11 a12 a13 a15 = outUsr a0 a1 a2 a3 a4 a5 a6 a7 a10 a11 a12 a13 a15 := by
  unfold val_main_v101 val_main_v99 val_main_v96 val_main_v100 outUsr
  rw [agg2_usr, hidUsr_eq, hidMov_eq]
  exact dense_usr _ _ _ _ _

end Cert.ReferenceIdeal.Stages

end
-- ==== Proof.ChainA.lean ====
/-
  The first layer of the kernel's program, read back from the launch memory.

  Before the first kernel the host computes the two aggregates (gather the source rows along the edges, add them up
  per destination, divide by the clamped edge count) and reshapes the first bias to one row; the movie-side kernel then
  leaves `relu (denseMov …)` of those in its result. A second reshape, and the user-side kernel leaves
  `relu (denseUsr …)`. No host operation and no kernel in between writes an argument array or an earlier result, so
  each buffer a later step reads still holds what its writer left: the launch contents for an argument, the
  aggregate for an aggregate. The aggregates are the reference's own host operations, applied to the same arguments.
-/
import proofs.«414119_j9405978378811_4_alg».proof.Proof.KRun
import proofs.«414119_j9405978378811_4_alg».proof.Proof.Layer1Movie
import proofs.«414119_j9405978378811_4_alg».proof.Proof.Layer1User
import proofs.«414119_j9405978378811_4_alg».proof.Proof.RefStages
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Cert.Sage
open Cert.ReferenceIdeal.Read (val_main_v18 val_main_v43)
open Cert.ReferenceIdeal.Stages (hidMov hidUsr)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A bias reshaped to one row, read at column `j` of that row, is entry `j` of the bias. -/
theorem row_of_reshape (b : FVec Ideal S64 .f32) (j : Fin 64) :
    shapeCast S1x64 b shapeCasts_S64_S1x64 (ix2 0 j) = b (ix1 j) :=
  shapeCast_apply b shapeCasts_S64_S1x64 (ix2 0 j) (ix1 j) (by
    rw [Shape.rowMajor_val_one, Shape.rowMajor_val_two]
    show j.val = 0 * 64 + j.val
    omega)

/-- Equal operands give equal clamped dense stages (movie side). -/
theorem hid_mov_congr {A A' X X' : FVec Ideal SMov .f32} {Wl Wl' Wr Wr' : FVec Ideal SWgt .f32} {b b' : FVec Ideal SBias .f32}
    (hA : A = A') (hX : X = X') (hWl : Wl = Wl') (hWr : Wr = Wr') (hb : b = b') :
    relu (denseMov A X Wl Wr b) = relu (denseMov A' X' Wl' Wr' b') := by subst hA hX hWl hWr hb; rfl

/-- Equal operands give equal clamped dense stages (user side). -/
theorem hid_usr_congr {A A' X X' : FVec Ideal SUsr .f32} {Wl Wl' Wr Wr' : FVec Ideal SWgt .f32} {b b' : FVec Ideal SBias .f32}
    (hA : A = A') (hX : X = X') (hWl : Wl = Wl') (hWr : Wr = Wr') (hb : b = b') :
    relu (denseUsr A X Wl Wr b) = relu (denseUsr A' X' Wl' Wr' b') := by subst hA hX hWl hWr hb; rfl

/-! ## What the first kernel is entered with -/

set_option maxHeartbeats 400000 in
/-- The movie-side aggregate of the user inputs. -/
theorem in0_agg (c : Dev nD) : (StableHlo.after hostOps0 (W0 m ρ c) (Proc.devRef .tc main_v18) : S100000x64.Idx → EReal)
    = val_main_v18 (F := Ideal) (m ((c : Thread nD τ).loc main_arg0)) (m ((c : Thread nD τ).loc main_arg2)) (m ((c : Thread nD τ).loc main_arg3)) := by
  after_results_simp <;> rfl

set_option maxHeartbeats 400000 in
theorem in0_own (c : Dev nD) : (StableHlo.after hostOps0 (W0 m ρ c) (Proc.devRef .tc main_arg1) : S100000x64.Idx → EReal)
    = (m ((c : Thread nD τ).loc main_arg1)) := by
  after_results_simp <;> rfl

set_option maxHeartbeats 400000 in
theorem in0_wl (c : Dev nD) : (StableHlo.after hostOps0 (W0 m ρ c) (Proc.devRef .tc main_arg4) : S64x64.Idx → EReal)
    = (m ((c : Thread nD τ).loc main_arg4)) := by
  after_results_simp <;> rfl

set_option maxHeartbeats 400000 in
theorem in0_wr (c : Dev nD) : (StableHlo.after hostOps0 (W0 m ρ c) (Proc.devRef .tc main_arg5) : S64x64.Idx → EReal)
    = (m ((c : Thread nD τ).loc main_arg5)) := by
  after_results_simp <;> rfl

set_option maxHeartbeats 400000 in
/-- The first bias, reshaped to one row. -/
theorem in0_bias (c : Dev nD) : (StableHlo.after hostOps0 (W0 m ρ c) (Proc.devRef .tc main_v38) : S1x64.Idx → EReal)
    = shapeCast S1x64 (m ((c : Thread nD τ).loc main_arg12)) shapeCasts_S64_S1x64 := by
  after_results_simp <;> rfl

/-- The first kernel's result: the first layer's movie features. -/
theorem hidMov_at (c : Dev nD) : (W2 m ρ c (Proc.devRef .tc main_v39) : S100000x64.Idx → EReal)
    = hidMov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  refine (W2_arr m ρ c 5).trans ((Layer1Movie.final (V1 m ρ) c).trans ?_)
  refine hid_mov_congr (in0_agg m ρ c) (in0_own m ρ c) (in0_wl m ρ c) (in0_wr m ρ c) (funext fun j => ?_)
  obtain ⟨q, rfl⟩ : ∃ q : Fin 64, j = ix1 q := ⟨j 0, eq_ix1 j⟩
  unfold Layer1Movie.bias
  refine (congrFun (in0_bias m ρ c) (ix2 0 q)).trans ?_
  exact row_of_reshape _ q

/-! ## What the second kernel is entered with

The first kernel wrote only its own result, and the reshape between the kernels only the second bias row. -/

set_option maxHeartbeats 400000 in
/-- The user-side aggregate of the movie inputs, computed before the first kernel and still in place. -/
theorem in1_agg (c : Dev nD) : (StableHlo.after hostOps1 (W2 m ρ c) (Proc.devRef .tc main_v37) : S200000x64.Idx → EReal)
    = val_main_v43 (F := Ideal) (m ((c : Thread nD τ).loc main_arg1)) (m ((c : Thread nD τ).loc main_arg2)) (m ((c : Thread nD τ).loc main_arg3)) := by
  after_results_simp
  rw [W2_of_ne m ρ c main_v37 (by decide)]
  simp only [W1]
  after_results_simp <;> rfl

set_option maxHeartbeats 400000 in
theorem in1_own (c : Dev nD) : (StableHlo.after hostOps1 (W2 m ρ c) (Proc.devRef .tc main_arg0) : S200000x64.Idx → EReal)
    = (m ((c : Thread nD τ).loc main_arg0)) := by
  after_results_simp
  rw [W2_of_ne m ρ c main_arg0 (by decide)]
  simp only [W1]
  after_results_simp <;> rfl

set_option maxHeartbeats 400000 in
theorem in1_wl (c : Dev nD) : (StableHlo.after hostOps1 (W2 m ρ c) (Proc.devRef .tc main_arg6) : S64x64.Idx → EReal)
    = (m ((c : Thread nD τ).loc main_arg6)) := by
  after_results_simp
  rw [W2_of_ne m ρ c main_arg6 (by decide)]
  simp only [W1]
  after_results_simp <;> rfl

set_option maxHeartbeats 400000 in
theorem in1_wr (c : Dev nD) : (StableHlo.after hostOps1 (W2 m ρ c) (Proc.devRef .tc main_arg7) : S64x64.Idx → EReal)
    = (m ((c : Thread nD τ).loc main_arg7)) := by
  after_results_simp
  rw [W2_of_ne m ρ c main_arg7 (by decide)]
  simp only [W1]
  after_results_simp <;> rfl

set_option maxHeartbeats 400000 in
/-- The second bias, reshaped to one row. -/
theorem in1_bias (c : Dev nD) : (StableHlo.after hostOps1 (W2 m ρ c) (Proc.devRef .tc main_v40) : S1x64.Idx → EReal)
    = shapeCast S1x64 (m ((c : Thread nD τ).loc main_arg13)) shapeCasts_S64_S1x64 := by
  after_results_simp
  rw [W2_of_ne m ρ c main_arg13 (by decide)]
  simp only [W1]
  after_results_simp <;> rfl

/-- The second kernel's result: the first layer's user features. -/
theorem hidUsr_at (c : Dev nD) : (W4 m ρ c (Proc.devRef .tc main_v41) : S200000x64.Idx → EReal)
    = hidUsr (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg13)) := by
  refine (W4_arr m ρ c 5).trans ((Layer1User.final (V3 m ρ) c).trans ?_)
  refine hid_usr_congr (in1_agg m ρ c) (in1_own m ρ c) (in1_wl m ρ c) (in1_wr m ρ c) (funext fun j => ?_)
  obtain ⟨q, rfl⟩ : ∃ q : Fin 64, j = ix1 q := ⟨j 0, eq_ix1 j⟩
  unfold Layer1User.bias
  refine (congrFun (in1_bias m ρ c) (ix2 0 q)).trans ?_
  exact row_of_reshape _ q

/-! ## What the later steps still find of the first layer -/

set_option maxHeartbeats 400000 in
/-- The first layer's movie features are still in place after the second kernel. -/
theorem hidMov_kept (c : Dev nD) : (W4 m ρ c (Proc.devRef .tc main_v39) : S100000x64.Idx → EReal)
    = hidMov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  rw [W4_of_ne m ρ c main_v39 (by decide)]
  simp only [W3]
  after_results_simp
  exact hidMov_at m ρ c

set_option maxHeartbeats 400000 in
/-- The source indices of the edges are as launched after the second kernel. -/
theorem src_kept (c : Dev nD) : (W4 m ρ c (Proc.devRef .tc main_arg2) : S2000000.Idx → BitVec 32) = (m ((c : Thread nD τ).loc main_arg2)) := by
  rw [W4_of_ne m ρ c main_arg2 (by decide)]
  simp only [W3]
  after_results_simp
  rw [W2_of_ne m ρ c main_arg2 (by decide)]
  simp only [W1]
  after_results_simp <;> rfl

set_option maxHeartbeats 400000 in
/-- The destination indices of the edges are as launched after the second kernel. -/
theorem dst_kept (c : Dev nD) : (W4 m ρ c (Proc.devRef .tc main_arg3) : S2000000.Idx → BitVec 32) = (m ((c : Thread nD τ).loc main_arg3)) := by
  rw [W4_of_ne m ρ c main_arg3 (by decide)]
  simp only [W3]
  after_results_simp
  rw [W2_of_ne m ρ c main_arg3 (by decide)]
  simp only [W1]
  after_results_simp <;> rfl

end Cert.KernelIdeal.Chain

end
-- ==== Proof.Layer2Movie.lean ====
/-
  The second layer's movie-side kernel, as one function of the arrays it is entered with.

  The kernel runs over 50 blocks of 2000 destination rows. At block `t` it loads rows `2000·t … 2000·t + 1999` of
  the aggregated neighbour features `A` and of the destination nodes' own features `X`, the two whole weight
  matrices and the bias row, and stores `A·Wl + b + X·Wr`, passed through `keep`, into the same rows of its result.
  Row `r` of the result therefore depends on row `r` of `A` and `X` only, and the 50 blocks tile the 100000 rows:
  the result array is `keep (denseMov A X Wl Wr b)`.
-/
import proofs.«414119_j9405978378811_4_alg».proof.Proof.Gen.KernelIdeal.Frame
import proofs.«414119_j9405978378811_4_alg».proof.Proof.Spec
import proofs.«414119_j9405978378811_4_alg».proof.Proof.Pay2000
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2Movie

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

theorem zero_offsets : (![0, 0] : Fin 2 → Nat) = fun _ => 0 := funext fun a => by fin_cases a <;> rfl

-- the contents the kernel is entered with: every array's and every other buffer's
variable (V : (c : Dev nD) → (b : Ref sig .tc) → Buf (Elt Ideal) ((c : Thread nD τ).loc b))

/-- The aggregated neighbour features the kernel is entered with. -/
abbrev arrA (c : Dev nD) : FVec Ideal SMov .f32 := V c main_v60
/-- The destination nodes' own features. -/
abbrev arrX (c : Dev nD) : FVec Ideal SMov .f32 := V c main_v39
/-- The weights applied to the aggregate. -/
abbrev arrWl (c : Dev nD) : FVec Ideal SWgt .f32 := V c main_arg8
/-- The weights applied to the node's own features. -/
abbrev arrWr (c : Dev nD) : FVec Ideal SWgt .f32 := V c main_arg9
/-- The bias, as the one-row matrix the kernel is given. -/
abbrev arrB (c : Dev nD) : FVec Ideal S1x64 .f32 := V c main_v80
/-- The bias as a vector: the row's entries. -/
def bias (c : Dev nD) : FVec Ideal SBias .f32 := fun j => arrB V c (ix2 0 ⟨(j 0).val, (j 0).isLt⟩)

/-- What the kernel's result array holds after the run, as one function of the entry contents. -/
def result (c : Dev nD) : FVec Ideal SMov .f32 :=
  keep (denseMov (arrA V c) (arrX V c) (arrWl V c) (arrWr V c) (bias V c))

/-- The blocks the kernel's windows hold at grid point `t`. -/
abbrev blkA (c : Dev nD) (t : Fin cfg2.N) : Vec Ideal S2000x64 .f32 := iblk2 V c 0 t
abbrev blkX (c : Dev nD) (t : Fin cfg2.N) : Vec Ideal S2000x64 .f32 := iblk2 V c 1 t
abbrev blkWl (c : Dev nD) (t : Fin cfg2.N) : Vec Ideal S64x64 .f32 := iblk2 V c 2 t
abbrev blkWr (c : Dev nD) (t : Fin cfg2.N) : Vec Ideal S64x64 .f32 := iblk2 V c 3 t
abbrev blkB (c : Dev nD) (t : Fin cfg2.N) : Vec Ideal S1x64 .f32 := iblk2 V c 4 t

/-- The printed index maps over the 50 grid points: the row-block windows sit at block `t`, the weights and the
    bias at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 50 := lt_of_lt_of_eq t.isLt N_2

/-- Row `p` of block `t` of the aggregate is row `2000·t + p` of the array. -/
theorem blkA_apply (c : Dev nD) (t : Fin cfg2.N) (p : Fin 2000) (k : Fin 64) :
    blkA V c t (ix2 p k) = arrA V c (ix2 ⟨t.val * 2000 + p.val, by have := point_lt t; omega⟩ k) := by
  show V c main_v60 (((cfg2.win 0).blk t).view.emb (ix2 p k)) = V c main_v60 _
  refine congrArg (V c main_v60) (funext fun a => Fin.ext ?_)
  obtain ⟨e0, e1, -⟩ := idx_facts t
  match a with
  | ⟨0, _⟩ => show win2_0.index t (0 : Fin 2) * 2000 + 1 * p.val = t.val * 2000 + p.val; omega
  | ⟨1, _⟩ => show win2_0.index t (1 : Fin 2) * 64 + 1 * k.val = k.val; omega

/-- Row `p` of block `t` of the destination nodes' own features is row `2000·t + p` of the array. -/
theorem blkX_apply (c : Dev nD) (t : Fin cfg2.N) (p : Fin 2000) (k : Fin 64) :
    blkX V c t (ix2 p k) = arrX V c (ix2 ⟨t.val * 2000 + p.val, by have := point_lt t; omega⟩ k) := by
  show V c main_v39 (((cfg2.win 1).blk t).view.emb (ix2 p k)) = V c main_v39 _
  refine congrArg (V c main_v39) (funext fun a => Fin.ext ?_)
  obtain ⟨-, -, e0, e1, -⟩ := idx_facts t
  match a with
  | ⟨0, _⟩ => show win2_1.index t (0 : Fin 2) * 2000 + 1 * p.val = t.val * 2000 + p.val; omega
  | ⟨1, _⟩ => show win2_1.index t (1 : Fin 2) * 64 + 1 * k.val = k.val; omega

/-- Every grid point holds the whole of the aggregate's weight matrix. -/
theorem blkWl_apply (c : Dev nD) (t : Fin cfg2.N) (k q : Fin 64) : blkWl V c t (ix2 k q) = arrWl V c (ix2 k q) := by
  show V c main_arg8 (((cfg2.win 2).blk t).view.emb (ix2 k q)) = V c main_arg8 _
  refine congrArg (V c main_arg8) (funext fun a => Fin.ext ?_)
  obtain ⟨-, -, -, -, e0, e1, -⟩ := idx_facts t
  match a with
  | ⟨0, _⟩ => show win2_2.index t (0 : Fin 2) * 64 + 1 * k.val = k.val; omega
  | ⟨1, _⟩ => show win2_2.index t (1 : Fin 2) * 64 + 1 * q.val = q.val; omega

/-- Every grid point holds the whole of the own-feature weight matrix. -/
theorem blkWr_apply (c : Dev nD) (t : Fin cfg2.N) (k q : Fin 64) : blkWr V c t (ix2 k q) = arrWr V c (ix2 k q) := by
  show V c main_arg9 (((cfg2.win 3).blk t).view.emb (ix2 k q)) = V c main_arg9 _
  refine congrArg (V c main_arg9) (funext fun a => Fin.ext ?_)
  obtain ⟨-, -, -, -, -, -, e0, e1, -⟩ := idx_facts t
  match a with
  | ⟨0, _⟩ => show win2_3.index t (0 : Fin 2) * 64 + 1 * k.val = k.val; omega
  | ⟨1, _⟩ => show win2_3.index t (1 : Fin 2) * 64 + 1 * q.val = q.val; omega

/-- Every grid point holds the whole bias row. -/
theorem blkB_apply (c : Dev nD) (t : Fin cfg2.N) (q : Fin 64) : blkB V c t (ix2 0 q) = arrB V c (ix2 0 q) := by
  show V c main_v80 (((cfg2.win 4).blk t).view.emb (ix2 0 q)) = V c main_v80 _
  refine congrArg (V c main_v80) (funext fun a => Fin.ext ?_)
  obtain ⟨-, -, -, -, -, -, -, -, e0, e1, -⟩ := idx_facts t
  match a with
  | ⟨0, _⟩ => show win2_4.index t (0 : Fin 2) * 1 + 1 * 0 = 0; omega
  | ⟨1, _⟩ => show win2_4.index t (1 : Fin 2) * 64 + 1 * q.val = q.val; omega

/-- What grid point `t` writes back is block `t` of `result`. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero zero_offsets]
  simp only [View.ld_unit_zero (S := S2000x64) zero_offsets, View.ld_unit_zero (S := S64x64) zero_offsets,
    View.ld_unit_zero (S := S1x64) zero_offsets]
  funext j
  obtain ⟨p, q, rfl⟩ : ∃ (p : Fin 2000) (q : Fin 64), j = ix2 p q := ⟨j 0, j 1, eq_ix2 j⟩
  show k2_pay1 (F := Ideal) (blkA V c t) (blkWl V c t) (blkX V c t) (blkWr V c t) (blkB V c t) (ix2 p q)
    = result V c (((cfg2.win 5).blk t).view.emb (ix2 p q))
  have hrow : ((cfg2.win 5).blk t).view.emb (ix2 p q)
      = ix2 ⟨t.val * 2000 + p.val, by have := point_lt t; omega⟩ q := funext fun a => Fin.ext (by
    obtain ⟨-, -, -, -, -, -, -, -, -, -, e0, e1⟩ := idx_facts t
    match a with
    | ⟨0, _⟩ => show win2_5.index t (0 : Fin 2) * 2000 + 1 * p.val = t.val * 2000 + p.val; omega
    | ⟨1, _⟩ => show win2_5.index t (1 : Fin 2) * 64 + 1 * q.val = q.val; omega)
  rw [pay2_apply, hrow]
  simp only [blkA_apply, blkX_apply, blkWl_apply, blkWr_apply, blkB_apply]
  rfl

/-- An index of the result array is in grid point `t`'s block iff its row is among the block's 2000 rows. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v81).slice (win2_5.rect t)).set ↔ _
  rw [View.set_slice_whole, Rect.mem_set_unit]
  exact Iff.rfl

/-- The 50 blocks tile the 100000 rows: row `r` is in block `r / 2000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 2000, lt_of_lt_of_eq (by omega) N_2.symm⟩
  obtain ⟨-, -, -, -, -, -, -, -, -, -, e0, e1⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The result array after the run is `result` of the entry contents. -/
theorem final (c : Dev nD) : (dat2 V c).arrAt 5 cfg2.N = result V c :=
  (dat2 V c).arrAt_eq_of_cover 5 (result V c) (fun t _ => flushed_eq V c t) cover

end Cert.KernelIdeal.Layer2Movie

end
-- ==== Proof.Layer2User.lean ====
/-
  The second layer's user-side kernel, as one function of the arrays it is entered with.

  The kernel runs over 25 blocks of 8000 destination rows. At block `t` it loads rows `8000·t … 8000·t + 1999` of
  the aggregated neighbour features `A` and of the destination nodes' own features `X`, the two whole weight
  matrices and the bias row, and stores `A·Wl + b + X·Wr`, passed through `keep`, into the same rows of its result.
  Row `r` of the result therefore depends on row `r` of `A` and `X` only, and the 25 blocks tile the 200000 rows:
  the result array is `keep (denseUsr A X Wl Wr b)`.
-/
import proofs.«414119_j9405978378811_4_alg».proof.Proof.Gen.KernelIdeal.Frame
import proofs.«414119_j9405978378811_4_alg».proof.Proof.Spec
import proofs.«414119_j9405978378811_4_alg».proof.Proof.Pay8000
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2User

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

theorem zero_offsets : (![0, 0] : Fin 2 → Nat) = fun _ => 0 := funext fun a => by fin_cases a <;> rfl

-- the contents the kernel is entered with: every array's and every other buffer's
variable (V : (c : Dev nD) → (b : Ref sig .tc) → Buf (Elt Ideal) ((c : Thread nD τ).loc b))

/-- The aggregated neighbour features the kernel is entered with. -/
abbrev arrA (c : Dev nD) : FVec Ideal SUsr .f32 := V c main_v79
/-- The destination nodes' own features. -/
abbrev arrX (c : Dev nD) : FVec Ideal SUsr .f32 := V c main_v41
/-- The weights applied to the aggregate. -/
abbrev arrWl (c : Dev nD) : FVec Ideal SWgt .f32 := V c main_arg10
/-- The weights applied to the node's own features. -/
abbrev arrWr (c : Dev nD) : FVec Ideal SWgt .f32 := V c main_arg11
/-- The bias, as the one-row matrix the kernel is given. -/
abbrev arrB (c : Dev nD) : FVec Ideal S1x64 .f32 := V c main_v82
/-- The bias as a vector: the row's entries. -/
def bias (c : Dev nD) : FVec Ideal SBias .f32 := fun j => arrB V c (ix2 0 ⟨(j 0).val, (j 0).isLt⟩)

/-- What the kernel's result array holds after the run, as one function of the entry contents. -/
def result (c : Dev nD) : FVec Ideal SUsr .f32 :=
  keep (denseUsr (arrA V c) (arrX V c) (arrWl V c) (arrWr V c) (bias V c))

/-- The blocks the kernel's windows hold at grid point `t`. -/
abbrev blkA (c : Dev nD) (t : Fin cfg3.N) : Vec Ideal S8000x64 .f32 := iblk3 V c 0 t
abbrev blkX (c : Dev nD) (t : Fin cfg3.N) : Vec Ideal S8000x64 .f32 := iblk3 V c 1 t
abbrev blkWl (c : Dev nD) (t : Fin cfg3.N) : Vec Ideal S64x64 .f32 := iblk3 V c 2 t
abbrev blkWr (c : Dev nD) (t : Fin cfg3.N) : Vec Ideal S64x64 .f32 := iblk3 V c 3 t
abbrev blkB (c : Dev nD) (t : Fin cfg3.N) : Vec Ideal S1x64 .f32 := iblk3 V c 4 t

/-- The printed index maps over the 25 grid points: the row-block windows sit at block `t`, the weights and the
    bias at their one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem point_lt (t : Fin cfg3.N) : t.val < 25 := lt_of_lt_of_eq t.isLt N_3

/-- Row `p` of block `t` of the aggregate is row `8000·t + p` of the array. -/
theorem blkA_apply (c : Dev nD) (t : Fin cfg3.N) (p : Fin 8000) (k : Fin 64) :
    blkA V c t (ix2 p k) = arrA V c (ix2 ⟨t.val * 8000 + p.val, by have := point_lt t; omega⟩ k) := by
  show V c main_v79 (((cfg3.win 0).blk t).view.emb (ix2 p k)) = V c main_v79 _
  refine congrArg (V c main_v79) (funext fun a => Fin.ext ?_)
  obtain ⟨e0, e1, -⟩ := idx_facts t
  match a with
  | ⟨0, _⟩ => show win3_0.index t (0 : Fin 2) * 8000 + 1 * p.val = t.val * 8000 + p.val; omega
  | ⟨1, _⟩ => show win3_0.index t (1 : Fin 2) * 64 + 1 * k.val = k.val; omega

/-- Row `p` of block `t` of the destination nodes' own features is row `8000·t + p` of the array. -/
theorem blkX_apply (c : Dev nD) (t : Fin cfg3.N) (p : Fin 8000) (k : Fin 64) :
    blkX V c t (ix2 p k) = arrX V c (ix2 ⟨t.val * 8000 + p.val, by have := point_lt t; omega⟩ k) := by
  show V c main_v41 (((cfg3.win 1).blk t).view.emb (ix2 p k)) = V c main_v41 _
  refine congrArg (V c main_v41) (funext fun a => Fin.ext ?_)
  obtain ⟨-, -, e0, e1, -⟩ := idx_facts t
  match a with
  | ⟨0, _⟩ => show win3_1.index t (0 : Fin 2) * 8000 + 1 * p.val = t.val * 8000 + p.val; omega
  | ⟨1, _⟩ => show win3_1.index t (1 : Fin 2) * 64 + 1 * k.val = k.val; omega

/-- Every grid point holds the whole of the aggregate's weight matrix. -/
theorem blkWl_apply (c : Dev nD) (t : Fin cfg3.N) (k q : Fin 64) : blkWl V c t (ix2 k q) = arrWl V c (ix2 k q) := by
  show V c main_arg10 (((cfg3.win 2).blk t).view.emb (ix2 k q)) = V c main_arg10 _
  refine congrArg (V c main_arg10) (funext fun a => Fin.ext ?_)
  obtain ⟨-, -, -, -, e0, e1, -⟩ := idx_facts t
  match a with
  | ⟨0, _⟩ => show win3_2.index t (0 : Fin 2) * 64 + 1 * k.val = k.val; omega
  | ⟨1, _⟩ => show win3_2.index t (1 : Fin 2) * 64 + 1 * q.val = q.val; omega

/-- Every grid point holds the whole of the own-feature weight matrix. -/
theorem blkWr_apply (c : Dev nD) (t : Fin cfg3.N) (k q : Fin 64) : blkWr V c t (ix2 k q) = arrWr V c (ix2 k q) := by
  show V c main_arg11 (((cfg3.win 3).blk t).view.emb (ix2 k q)) = V c main_arg11 _
  refine congrArg (V c main_arg11) (funext fun a => Fin.ext ?_)
  obtain ⟨-, -, -, -, -, -, e0, e1, -⟩ := idx_facts t
  match a with
  | ⟨0, _⟩ => show win3_3.index t (0 : Fin 2) * 64 + 1 * k.val = k.val; omega
  | ⟨1, _⟩ => show win3_3.index t (1 : Fin 2) * 64 + 1 * q.val = q.val; omega

/-- Every grid point holds the whole bias row. -/
theorem blkB_apply (c : Dev nD) (t : Fin cfg3.N) (q : Fin 64) : blkB V c t (ix2 0 q) = arrB V c (ix2 0 q) := by
  show V c main_v82 (((cfg3.win 4).blk t).view.emb (ix2 0 q)) = V c main_v82 _
  refine congrArg (V c main_v82) (funext fun a => Fin.ext ?_)
  obtain ⟨-, -, -, -, -, -, -, -, e0, e1, -⟩ := idx_facts t
  match a with
  | ⟨0, _⟩ => show win3_4.index t (0 : Fin 2) * 1 + 1 * 0 = 0; omega
  | ⟨1, _⟩ => show win3_4.index t (1 : Fin 2) * 64 + 1 * q.val = q.val; omega

/-- What grid point `t` writes back is block `t` of `result`. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero zero_offsets]
  simp only [View.ld_unit_zero (S := S8000x64) zero_offsets, View.ld_unit_zero (S := S64x64) zero_offsets,
    View.ld_unit_zero (S := S1x64) zero_offsets]
  funext j
  obtain ⟨p, q, rfl⟩ : ∃ (p : Fin 8000) (q : Fin 64), j = ix2 p q := ⟨j 0, j 1, eq_ix2 j⟩
  show k3_pay1 (F := Ideal) (blkA V c t) (blkWl V c t) (blkX V c t) (blkWr V c t) (blkB V c t) (ix2 p q)
    = result V c (((cfg3.win 5).blk t).view.emb (ix2 p q))
  have hrow : ((cfg3.win 5).blk t).view.emb (ix2 p q)
      = ix2 ⟨t.val * 8000 + p.val, by have := point_lt t; omega⟩ q := funext fun a => Fin.ext (by
    obtain ⟨-, -, -, -, -, -, -, -, -, -, e0, e1⟩ := idx_facts t
    match a with
    | ⟨0, _⟩ => show win3_5.index t (0 : Fin 2) * 8000 + 1 * p.val = t.val * 8000 + p.val; omega
    | ⟨1, _⟩ => show win3_5.index t (1 : Fin 2) * 64 + 1 * q.val = q.val; omega)
  rw [pay3_apply, hrow]
  simp only [blkA_apply, blkX_apply, blkWl_apply, blkWr_apply, blkB_apply]
  rfl

/-- An index of the result array is in grid point `t`'s block iff its row is among the block's 8000 rows. -/
theorem mem_blk (t : Fin cfg3.N) (i : S200000x64.Idx) :
    i ∈ ((cfg3.win 5).blk t).view.set ↔ ∀ a : Fin 2, win3_5.index t a * S8000x64.size a ≤ (i a).val ∧ (i a).val < win3_5.index t a * S8000x64.size a + S8000x64.size a := by
  show i ∈ ((View.whole main_v83).slice (win3_5.rect t)).set ↔ _
  rw [View.set_slice_whole, Rect.mem_set_unit]
  exact Iff.rfl

/-- The 25 blocks tile the 200000 rows: row `r` is in block `r / 8000`. -/
theorem cover (i : S200000x64.Idx) : ∃ t : Fin cfg3.N, (cfg3.win 5).flush t = true ∧ i ∈ ((cfg3.win 5).blk t).view.set := by
  have hi0 : (i 0).val < 200000 := (i 0).isLt
  have hi1 : (i 1).val < 64 := (i 1).isLt
  let t : Fin cfg3.N := ⟨(i 0).val / 8000, lt_of_lt_of_eq (by omega) N_3.symm⟩
  obtain ⟨-, -, -, -, -, -, -, -, -, -, e0, e1⟩ := idx_facts t
  have ht : t.val = (i 0).val / 8000 := rfl
  refine ⟨t, flush3_5 t, ?_⟩
  rw [mem_blk]
  intro a
  match a with
  | ⟨0, _⟩ => show win3_5.index t (0 : Fin 2) * 8000 ≤ (i 0).val ∧ (i 0).val < win3_5.index t (0 : Fin 2) * 8000 + 8000; omega
  | ⟨1, _⟩ => show win3_5.index t (1 : Fin 2) * 64 ≤ (i 1).val ∧ (i 1).val < win3_5.index t (1 : Fin 2) * 64 + 64; omega

/-- The result array after the run is `result` of the entry contents. -/
theorem final (c : Dev nD) : (dat3 V c).arrAt 5 cfg3.N = result V c :=
  (dat3 V c).arrAt_eq_of_cover 5 (result V c) (fun t _ => flushed_eq V c t) cover

end Cert.KernelIdeal.Layer2User

end
-- ==== Proof.ChainB.lean ====
/-
  The second layer of the kernel's program, read back from the launch memory.

  After the second kernel the host computes the two aggregates again, now of the first layer's features, with the
  same operations on the same edge arrays, and reshapes the third bias; the third kernel leaves `denseMov …` of the
  movie-side aggregate and the first layer's movie features. The fourth bias is reshaped and the fourth kernel leaves
  `denseUsr …` of the user-side aggregate and the first layer's user features. Nothing in between writes an argument
  array, the edge arrays or an earlier result.
-/
import proofs.«414119_j9405978378811_4_alg».proof.Proof.ChainA
import proofs.«414119_j9405978378811_4_alg».proof.Proof.Layer2Movie
import proofs.«414119_j9405978378811_4_alg».proof.Proof.Layer2User

set_option maxRecDepth 16384

noncomputable section

namespace Cert.KernelIdeal.Chain

open Cert.KernelIdeal Cert.KernelIdeal.Gen Cert.Sage
open Cert.ReferenceIdeal.Read (val_main_v18 val_main_v43)
open Cert.ReferenceIdeal.Stages (hidMov hidUsr outMov outUsr)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Equal operands give equal dense stages (movie side). -/
theorem out_mov_congr {A A' X X' : FVec Ideal SMov .f32} {Wl Wl' Wr Wr' : FVec Ideal SWgt .f32} {b b' : FVec Ideal SBias .f32}
    (hA : A = A') (hX : X = X') (hWl : Wl = Wl') (hWr : Wr = Wr') (hb : b = b') :
    keep (denseMov A X Wl Wr b) = keep (denseMov A' X' Wl' Wr' b') := by subst hA hX hWl hWr hb; rfl

/-- Equal operands give equal dense stages (user side). -/
theorem out_usr_congr {A A' X X' : FVec Ideal SUsr .f32} {Wl Wl' Wr Wr' : FVec Ideal SWgt .f32} {b b' : FVec Ideal SBias .f32}
    (hA : A = A') (hX : X = X') (hWl : Wl = Wl') (hWr : Wr = Wr') (hb : b = b') :
    keep (denseUsr A X Wl Wr b) = keep (denseUsr A' X' Wl' Wr' b') := by subst hA hX hWl hWr hb; rfl

/-! ## What the third kernel is entered with -/

set_option maxHeartbeats 1000000 in
/-- The movie-side aggregate of the first layer's user features. -/
theorem in2_agg (c : Dev nD) : (StableHlo.after hostOps2 (W4 m ρ c) (Proc.devRef .tc main_v60) : S100000x64.Idx → EReal)
    = val_main_v18 (F := Ideal) (hidUsr (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg13)))
        (m ((c : Thread nD τ).loc main_arg2)) (m ((c : Thread nD τ).loc main_arg3)) := by
  after_results_simp
  rw [hidUsr_at m ρ c, src_kept m ρ c, dst_kept m ρ c]
  rfl

set_option maxHeartbeats 400000 in
/-- The first layer's movie features. -/
theorem in2_own (c : Dev nD) : (StableHlo.after hostOps2 (W4 m ρ c) (Proc.devRef .tc main_v39) : S100000x64.Idx → EReal)
    = hidMov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  after_results_simp
  exact hidMov_kept m ρ c

set_option maxHeartbeats 1000000 in
theorem in2_wl (c : Dev nD) : (StableHlo.after hostOps2 (W4 m ρ c) (Proc.devRef .tc main_arg8) : S64x64.Idx → EReal)
    = (m ((c : Thread nD τ).loc main_arg8)) := by
  after_results_simp
  rw [W4_of_ne m ρ c main_arg8 (by decide)]
  simp only [W3]
  after_results_simp
  rw [W2_of_ne m ρ c main_arg8 (by decide)]
  simp only [W1]
  after_results_simp <;> rfl

set_option maxHeartbeats 1000000 in
theorem in2_wr (c : Dev nD) : (StableHlo.after hostOps2 (W4 m ρ c) (Proc.devRef .tc main_arg9) : S64x64.Idx → EReal)
    = (m ((c : Thread nD τ).loc main_arg9)) := by
  after_results_simp
  rw [W4_of_ne m ρ c main_arg9 (by decide)]
  simp only [W3]
  after_results_simp
  rw [W2_of_ne m ρ c main_arg9 (by decide)]
  simp only [W1]
  after_results_simp <;> rfl

set_option maxHeartbeats 1000000 in
/-- The third bias, reshaped to one row. -/
theorem in2_bias (c : Dev nD) : (StableHlo.after hostOps2 (W4 m ρ c) (Proc.devRef .tc main_v80) : S1x64.Idx → EReal)
    = shapeCast S1x64 (m ((c : Thread nD τ).loc main_arg14)) shapeCasts_S64_S1x64 := by
  after_results_simp
  rw [W4_of_ne m ρ c main_arg14 (by decide)]
  simp only [W3]
  after_results_simp
  rw [W2_of_ne m ρ c main_arg14 (by decide)]
  simp only [W1]
  after_results_simp <;> rfl

/-- The third kernel's result: the second layer's movie features. -/
theorem outMov_at (c : Dev nD) : (W6 m ρ c (Proc.devRef .tc main_v81) : S100000x64.Idx → EReal)
    = outMov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) := by
  refine (W6_arr m ρ c 5).trans ((Layer2Movie.final (V5 m ρ) c).trans ?_)
  refine out_mov_congr (in2_agg m ρ c) (in2_own m ρ c) (in2_wl m ρ c) (in2_wr m ρ c) (funext fun j => ?_)
  obtain ⟨q, rfl⟩ : ∃ q : Fin 64, j = ix1 q := ⟨j 0, eq_ix1 j⟩
  unfold Layer2Movie.bias
  refine (congrFun (in2_bias m ρ c) (ix2 0 q)).trans ?_
  exact row_of_reshape _ q

/-! ## What the fourth kernel is entered with -/

set_option maxHeartbeats 1000000 in
/-- The user-side aggregate of the first layer's movie features, computed before the third kernel and still in place. -/
theorem in3_agg (c : Dev nD) : (StableHlo.after hostOps3 (W6 m ρ c) (Proc.devRef .tc main_v79) : S200000x64.Idx → EReal)
    = val_main_v43 (F := Ideal) (hidMov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)))
        (m ((c : Thread nD τ).loc main_arg2)) (m ((c : Thread nD τ).loc main_arg3)) := by
  after_results_simp
  rw [W6_of_ne m ρ c main_v79 (by decide)]
  simp only [W5]
  after_results_simp
  rw [hidMov_kept m ρ c, src_kept m ρ c, dst_kept m ρ c]
  rfl

set_option maxHeartbeats 1000000 in
/-- The first layer's user features. -/
theorem in3_own (c : Dev nD) : (StableHlo.after hostOps3 (W6 m ρ c) (Proc.devRef .tc main_v41) : S200000x64.Idx → EReal)
    = hidUsr (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg13)) := by
  after_results_simp
  rw [W6_of_ne m ρ c main_v41 (by decide)]
  simp only [W5]
  after_results_simp
  exact hidUsr_at m ρ c

set_option maxHeartbeats 1000000 in
theorem in3_wl (c : Dev nD) : (StableHlo.after hostOps3 (W6 m ρ c) (Proc.devRef .tc main_arg10) : S64x64.Idx → EReal)
    = (m ((c : Thread nD τ).loc main_arg10)) := by
  after_results_simp
  rw [W6_of_ne m ρ c main_arg10 (by decide)]
  simp only [W5]
  after_results_simp
  rw [W4_of_ne m ρ c main_arg10 (by decide)]
  simp only [W3]
  after_results_simp
  rw [W2_of_ne m ρ c main_arg10 (by decide)]
  simp only [W1]
  after_results_simp <;> rfl

set_option maxHeartbeats 1000000 in
theorem in3_wr (c : Dev nD) : (StableHlo.after hostOps3 (W6 m ρ c) (Proc.devRef .tc main_arg11) : S64x64.Idx → EReal)
    = (m ((c : Thread nD τ).loc main_arg11)) := by
  after_results_simp
  rw [W6_of_ne m ρ c main_arg11 (by decide)]
  simp only [W5]
  after_results_simp
  rw [W4_of_ne m ρ c main_arg11 (by decide)]
  simp only [W3]
  after_results_simp
  rw [W2_of_ne m ρ c main_arg11 (by decide)]
  simp only [W1]
  after_results_simp <;> rfl

set_option maxHeartbeats 1000000 in
/-- The fourth bias, reshaped to one row. -/
theorem in3_bias (c : Dev nD) : (StableHlo.after hostOps3 (W6 m ρ c) (Proc.devRef .tc main_v82) : S1x64.Idx → EReal)
    = shapeCast S1x64 (m ((c : Thread nD τ).loc main_arg15)) shapeCasts_S64_S1x64 := by
  after_results_simp
  rw [W6_of_ne m ρ c main_arg15 (by decide)]
  simp only [W5]
  after_results_simp
  rw [W4_of_ne m ρ c main_arg15 (by decide)]
  simp only [W3]
  after_results_simp
  rw [W2_of_ne m ρ c main_arg15 (by decide)]
  simp only [W1]
  after_results_simp <;> rfl

/-- The fourth kernel's result: the second layer's user features. -/
theorem outUsr_at (c : Dev nD) : (W8 m ρ c (Proc.devRef .tc main_v83) : S200000x64.Idx → EReal)
    = outUsr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15)) := by
  refine (W8_arr m ρ c 5).trans ((Layer2User.final (V7 m ρ) c).trans ?_)
  refine out_usr_congr (in3_agg m ρ c) (in3_own m ρ c) (in3_wl m ρ c) (in3_wr m ρ c) (funext fun j => ?_)
  obtain ⟨q, rfl⟩ : ∃ q : Fin 64, j = ix1 q := ⟨j 0, eq_ix1 j⟩
  unfold Layer2User.bias
  refine (congrFun (in3_bias m ρ c) (ix2 0 q)).trans ?_
  exact row_of_reshape _ q

set_option maxHeartbeats 400000 in
/-- The second layer's movie features are still in place at the end. -/
theorem outMov_kept (c : Dev nD) : (W8 m ρ c (Proc.devRef .tc main_v81) : S100000x64.Idx → EReal)
    = outMov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) := by
  rw [W8_of_ne m ρ c main_v81 (by decide)]
  simp only [W7]
  after_results_simp
  exact outMov_at m ρ c

end Cert.KernelIdeal.Chain

end
-- ==== Proof.lean ====
/-
  A two-layer SAGE encoder over a bipartite user–movie graph: the kernel's program against its reference.

  Each layer sends every destination node `r` to `mean of its neighbours' rows · Wl + b + its own row · Wr`. Both
  programs compute the mean the same way, on the host, with the same operations: gather the source rows along the
  edges, add them up per destination, divide by the edge count clamped below at one. They differ in the dense part. The
  reference computes it on the host as two matrix products, a broadcast bias and two additions over the whole node set
  (and a maximum with zero after the first layer); the kernel's program runs a kernel over blocks of 2000 movie rows or
  8000 user rows, each block doing the same arithmetic on its rows. Over the extended reals a block's entry `(r, j)`
  is `∑ₖ A r k · Wl k j + b j + ∑ₖ X r k · Wr k j` on both sides, the blocks tile the rows, and so each kernel's
  result array is the reference's dense stage of the same operands. Chaining the two layers — the second layer's
  aggregates read the first layer's results, which nothing overwrites in between — both programs end with the same
  user features and the same movie features. No algebraic law beyond reading a product as a sum is used, so the
  inputs' finiteness is never needed.

  The frames of the two kernel programs are the generated frame certificates; the reference's frame is its generated
  run with the results dropped; the kernel's idealization rewrote nothing.
-/
import proofs.«414119_j9405978378811_4_alg».proof.Defs
import proofs.«414119_j9405978378811_4_alg».proof.Proof.Gen.Kernel
import proofs.«414119_j9405978378811_4_alg».proof.Proof.Gen.Kernel.Skeleton
import proofs.«414119_j9405978378811_4_alg».proof.Proof.Gen.Kernel.Launch
import proofs.«414119_j9405978378811_4_alg».proof.Proof.Gen.Kernel.Points
import proofs.«414119_j9405978378811_4_alg».proof.Proof.Gen.Kernel.Frame
import proofs.«414119_j9405978378811_4_alg».proof.Proof.Gen.KernelIdeal
import proofs.«414119_j9405978378811_4_alg».proof.Proof.Gen.KernelIdeal.Skeleton
import proofs.«414119_j9405978378811_4_alg».proof.Proof.Gen.KernelIdeal.Launch
import proofs.«414119_j9405978378811_4_alg».proof.Proof.Gen.KernelIdeal.Points
import proofs.«414119_j9405978378811_4_alg».proof.Proof.Gen.KernelIdeal.Frame
import proofs.«414119_j9405978378811_4_alg».proof.Proof.Gen.ReferenceIdeal
import proofs.«414119_j9405978378811_4_alg».proof.Proof.Gen.ReferenceIdeal.Run
import proofs.«414119_j9405978378811_4_alg».proof.Proof.Gen.ReferenceIdeal.Read
import proofs.«414119_j9405978378811_4_alg».proof.Proof.Gen.Pre_finite_inputs
import proofs.«414119_j9405978378811_4_alg».proof.Proof.KRun
import proofs.«414119_j9405978378811_4_alg».proof.Proof.ChainB
import proofs.«414119_j9405978378811_4_alg».proof.Proof.RefStages
import Idealize.ShloMosaic.Adequacy
import Idealize.ShloMosaic.Init

noncomputable section

namespace Cert.Proof

open Idealize.ShloMosaic Idealize.ShloMosaic.TcCoe Idealize.SL.Sem
open Cert.ReferenceIdeal.Stages (outMov outUsr)

/-- The kernel's program, run at the extended reals: it ends with the second layer's user features in its first
    result, the second layer's movie features in its second, and its arguments as launched. -/
theorem kernel_values (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v83)
        = outUsr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_v81)
        = outMov (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run (Cert.KernelIdeal.defs (F := Ideal)) _ _).mono
    (fun r h c => ⟨(h c).1.trans (Cert.KernelIdeal.Chain.outUsr_at m ρ c), (h c).2.1.trans (Cert.KernelIdeal.Chain.outMov_kept m ρ c), (h c).2.2⟩)
    (Cert.KernelIdeal.Gen.run_named (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two feature arrays: the kernel's by
    `kernel_values`, the reference's by its generated run read stage by stage. -/
theorem algebraic : Cert.algebraic_KernelIdeal_ReferenceIdeal := by
  intro m ρ m' ρ' _ hagree
  refine ⟨_, _, kernel_values m ρ, ?_⟩
  refine (θ_run Cert.ReferenceIdeal.defs _ _).mono (fun r h c => ?_) (Cert.ReferenceIdeal.Value.run (F := Ideal) m' ρ')
  obtain ⟨hu, hm, hargs⟩ := h c
  obtain ⟨e0, e1, e2, e3, e4, e5, e6, e7, e8, e9, e10, e11, e12, e13, e14, e15⟩ := hagree c
  refine ⟨?_, ?_, hargs⟩
  · rw [hu, Cert.ReferenceIdeal.Read.val_main_v101_eq, Cert.ReferenceIdeal.Stages.outUsr_eq,
      e0, e1, e2, e3, e4, e5, e6, e7, e10, e11, e12, e13, e15]
  · rw [hm, Cert.ReferenceIdeal.Read.val_main_v76_eq, Cert.ReferenceIdeal.Stages.outMov_eq,
      e0, e1, e2, e3, e4, e5, e6, e7, e8, e9, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
